-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S1600000 : Shape := ⟨1, ![1600000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128x40 .f32) (main_arg6 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x40 .f32 := Host.absf main_arg5
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S100000x512 .f32) (main_arg1 : IVec S2x1600000 32) (main_arg2 : FVec F S1600000 .f32) (main_arg3 : FVec F S512x128 .f32) (main_arg4 : FVec F S128 .f32) (main_arg5 : FVec F S128x40 .f32) (main_arg6 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S512x128 .f32 := Host.absf main_arg3
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x512 : Shape := ⟨2, ![100000, 512]⟩
abbrev S2x1600000 : Shape := ⟨2, ![2, 1600000]⟩
abbrev S1600000 : Shape := ⟨1, ![1600000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S100000x128 : Shape := ⟨2, ![100000, 128]⟩
abbrev S2000x512 : Shape := ⟨2, ![2000, 512]⟩
abbrev S2000x128 : Shape := ⟨2, ![2000, 128]⟩
abbrev S1x1600000 : Shape := ⟨2, ![1, 1600000]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S100000x40 : Shape := ⟨2, ![100000, 40]⟩
abbrev S2000x40 : Shape := ⟨2, ![2000, 40]⟩
abbrev S1600000x40 : Shape := ⟨2, ![1600000, 40]⟩
abbrev S1x40 : Shape := ⟨2, ![1, 40]⟩
abbrev S2000 : Shape := ⟨1, ![2000]⟩
abbrev S2000x1 : Shape := ⟨2, ![2000, 1]⟩

abbrev nBuf : Space → Nat
  | .hbm => 52
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S1600000, .f32⟩
  | .hbm, ⟨3, _⟩ => ⟨S512x128, .f32⟩
  | .hbm, ⟨4, _⟩ => ⟨S128, .f32⟩
  | .hbm, ⟨5, _⟩ => ⟨S128x40, .f32⟩
  | .hbm, ⟨6, _⟩ => ⟨S40, .f32⟩
  | .hbm, ⟨7, _⟩ => ⟨S100000x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S1600000x1, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S1x128, .f32⟩
  | .hbm, ⟨29, _⟩ => ⟨S100000x40, .f32⟩
  | .hbm, ⟨30, _⟩ => ⟨S1x1600000, .i32⟩
  | .hbm, ⟨31, _⟩ => ⟨S1600000, .i32⟩
  | .hbm, ⟨32, _⟩ => ⟨S1x1600000, .i32⟩
  | .hbm, ⟨33, _⟩ => ⟨S1600000, .i32⟩
  | .hbm, ⟨34, _⟩ => ⟨S1600000x1, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x40, .f32⟩
  | .hbm, ⟨44, _⟩ => ⟨S1600000x40, .f32⟩
  | .hbm, ⟨45, _⟩ => ⟨S1600000x40, .f32⟩
  | .hbm, ⟨46, _⟩ => ⟨S_, .f32⟩
  | .hbm, ⟨47, _⟩ => ⟨S100000x40, .f32⟩
  | .hbm, ⟨48, _⟩ => ⟨S1600000x1, .i32⟩
  | .hbm, ⟨49, _⟩ => ⟨S100000x40, .f32⟩
  | .hbm, ⟨50, _⟩ => ⟨S1x40, .f32⟩
  | .hbm, ⟨51, _⟩ => ⟨S100000x40, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S128x40, .f32⟩
  | .local _ .vmem, ⟨9, _⟩ => ⟨S2000x40, .f32⟩
  | .local _ .vmem, ⟨10, _⟩ => ⟨S2000x40, .f32⟩
  | .local _ .vmem, ⟨11, _⟩ => ⟨S2000x40, .f32⟩
  | .local _ .vmem, ⟨12, _⟩ => ⟨S2000x40, .f32⟩
  | .local _ .vmem, ⟨13, _⟩ => ⟨S1x40, .f32⟩
  | .local _ .vmem, ⟨14, _⟩ => ⟨S2000x40, .f32⟩
  | .local _ .vmem, ⟨15, _⟩ => ⟨S2000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_1 : Ref sig .tc := ⟨.hbm, 35, rfl⟩
abbrev main_v25 : Ref sig .tc := ⟨.hbm, 36, rfl⟩
abbrev main_v26 : Ref sig .tc := ⟨.hbm, 37, rfl⟩
abbrev main_c_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x40_S128x40_0_0 : ∀ a, (![0, 0] : Fin 2 → Nat) a + S128x40.size a ≤ S128x40.size a
  h_S128x40 : 0 < S128x40.numel
  inb_S2000x40_S2000x40_0_0 : ∀ a, (![0, 0] : Fin 2 → Nat) a + S2000x40.size a ≤ S2000x40.size a
  h_S2000x40 : 0 < S2000x40.numel
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  shapeCasts_S40_S1x40 : S40.ShapeCasts S1x40
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  dot_S2000x512_S512x128_S2000x128_1_0_0_1_n_n_wf : DotDims.WF S2000x512 S512x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x40_S2000x40_1_0_0_1_n_n_wf : DotDims.WF S2000x128 S128x40 S2000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .f32 = 32 ∨ (Rect.block (s := S128x40) S128x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x40.size a ≤ S100000x40.size a
  hwx1_3 : ∀ i : grid1.Coords, EltTy.bits .f32 = 32 ∨ (Rect.block (s := S100000x40) S2000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x40.size a ≤ S100000x40.size a
  hwx2_0 : ∀ i : grid2.Coords, EltTy.bits .f32 = 32 ∨ (Rect.block (s := S100000x40) S2000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x40.size a ≤ S100000x40.size a
  hwx2_2 : ∀ i : grid2.Coords, EltTy.bits .f32 = 32 ∨ (Rect.block (s := S100000x40) S2000x40.size (cc2_transform_2 i) (hinb2_2 i)).WholeWords (EltTy.packing .f32)

variable [Facts₀]

def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S2000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v36) S2000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S2000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S1600000 : Shape := ⟨1, ![1600000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S100000x128 : Shape := ⟨2, ![100000, 128]⟩
abbrev S1x1600000 : Shape := ⟨2, ![1, 1600000]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S100000x40 : Shape := ⟨2, ![100000, 40]⟩
abbrev S1600000x40 : Shape := ⟨2, ![1600000, 40]⟩
abbrev S1x40 : Shape := ⟨2, ![1, 40]⟩
abbrev S100000 : Shape := ⟨1, ![100000]⟩
abbrev S100000x1 : Shape := ⟨2, ![100000, 1]⟩

abbrev nBuf : Space → Nat
  | .hbm => 73
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S1600000, .f32⟩
  | .hbm, ⟨3, _⟩ => ⟨S512x128, .f32⟩
  | .hbm, ⟨4, _⟩ => ⟨S128, .f32⟩
  | .hbm, ⟨5, _⟩ => ⟨S128x40, .f32⟩
  | .hbm, ⟨6, _⟩ => ⟨S40, .f32⟩
  | .hbm, ⟨7, _⟩ => ⟨S100000x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S1600000x1, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S1x128, .f32⟩
  | .hbm, ⟨29, _⟩ => ⟨S100000x128, .f32⟩
  | .hbm, ⟨30, _⟩ => ⟨S100000x128, .f32⟩
  | .hbm, ⟨31, _⟩ => ⟨S_, .f32⟩
  | .hbm, ⟨32, _⟩ => ⟨S100000x128, .f32⟩
  | .hbm, ⟨33, _⟩ => ⟨S100000x128, .f32⟩
  | .hbm, ⟨34, _⟩ => ⟨S100000x40, .f32⟩
  | .hbm, ⟨35, _⟩ => ⟨S1x1600000, .i32⟩
  | .hbm, ⟨36, _⟩ => ⟨S1600000, .i32⟩
  | .hbm, ⟨37, _⟩ => ⟨S1x1600000, .i32⟩
  | .hbm, ⟨38, _⟩ => ⟨S1600000, .i32⟩
  | .hbm, ⟨39, _⟩ => ⟨S1600000x1, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x40, .f32⟩
  | .hbm, ⟨49, _⟩ => ⟨S1600000x40, .f32⟩
  | .hbm, ⟨50, _⟩ => ⟨S1600000x40, .f32⟩
  | .hbm, ⟨51, _⟩ => ⟨S_, .f32⟩
  | .hbm, ⟨52, _⟩ => ⟨S100000x40, .f32⟩
  | .hbm, ⟨53, _⟩ => ⟨S1600000x1, .i32⟩
  | .hbm, ⟨54, _⟩ => ⟨S100000x40, .f32⟩
  | .hbm, ⟨55, _⟩ => ⟨S1x40, .f32⟩
  | .hbm, ⟨56, _⟩ => ⟨S100000x40, .f32⟩
  | .hbm, ⟨57, _⟩ => ⟨S100000x40, .f32⟩
  | .hbm, ⟨58, _⟩ => ⟨S_, .f32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x40, .f32⟩
  | .hbm, ⟨65, _⟩ => ⟨S100000x40, .f32⟩
  | .hbm, ⟨66, _⟩ => ⟨S100000x40, .f32⟩
  | .hbm, ⟨67, _⟩ => ⟨S_, .f32⟩
  | .hbm, ⟨68, _⟩ => ⟨S100000, .f32⟩
  | .hbm, ⟨69, _⟩ => ⟨S100000x1, .f32⟩
  | .hbm, ⟨70, _⟩ => ⟨S100000x1, .f32⟩
  | .hbm, ⟨71, _⟩ => ⟨S100000x40, .f32⟩
  | .hbm, ⟨72, _⟩ => ⟨S100000x40, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_1 : Ref sig .tc := ⟨.hbm, 40, rfl⟩
abbrev main_v28 : Ref sig .tc := ⟨.hbm, 41, rfl⟩
abbrev main_v29 : Ref sig .tc := ⟨.hbm, 42, rfl⟩
abbrev main_c_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call1_cst : Ref sig .tc := ⟨.hbm, 58, rfl⟩
abbrev main_call1_v0 : Ref sig .tc := ⟨.hbm, 59, rfl⟩
abbrev main_call1_cst_0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_v6 : Ref sig .tc := ⟨.hbm, 66, rfl⟩
abbrev main_call1_cst_1 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_v43 : Ref sig .tc := ⟨.hbm, 72, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x512_S512x128_S100000x128_1_0_0_1_n_n_wf : DotDims.WF S100000x512 S512x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.Spec.lean ====
/-
  What the three kernel regions compute, index by index, on the extended reals.

  A two-layer graph convolution: the first dense layer is the product x · W1; the second takes the aggregated
  first layer `a`, adds the bias row, clamps at zero and multiplies by W2; the last takes the aggregated second layer
  `z`, adds the bias row and takes the log-softmax of every row: with y = z[r, ·] + b and M the largest entry of y,
  the entry at column c is (y c − M) − log Σ_k exp (y k − M). The zero the clamp compares with and the −∞ the maximum
  starts from are kept as the bit patterns both programs write, never evaluated.
-/
import Idealize.ShloMosaic.Lib.ValueIdx
import Idealize.ShloMosaic.PureOps.Ideal

noncomputable section

namespace Cert.Spec

open Idealize.ShloMosaic Idealize.ShloMosaic.ValueIdx

/-- Entry (r, c) of x · W1: the sum over the 512 features. -/
def dense1At (x : FVec Ideal ⟨2, ![100000, 512]⟩ .f32) (w : FVec Ideal ⟨2, ![512, 128]⟩ .f32)
    (r : Fin 100000) (c : Fin 128) : EReal :=
  ∑ k : Fin 512, x (ix2 r k) * w (ix2 k c)

/-- x · W1 as an array. -/
def dense1 (x : FVec Ideal ⟨2, ![100000, 512]⟩ .f32) (w : FVec Ideal ⟨2, ![512, 128]⟩ .f32) :
    FVec Ideal ⟨2, ![100000, 128]⟩ .f32 :=
  fun i => dense1At x w ⟨(i 0).val, idx2_lt0 i⟩ ⟨(i 1).val, idx2_lt1 i⟩

/-- Entry (r, c) of max (a + b, 0) · W2, the bias a one-row array: the sum over the 128 hidden units. -/
def reluDense2At (a : FVec Ideal ⟨2, ![100000, 128]⟩ .f32) (b : FVec Ideal ⟨2, ![1, 128]⟩ .f32)
    (w : FVec Ideal ⟨2, ![128, 40]⟩ .f32) (r : Fin 100000) (c : Fin 40) : EReal :=
  ∑ k : Fin 128, max (a (ix2 r k) + b (ix2 (0 : Fin 1) k)) (Ideal.ofBits .f32 0x00000000#32) * w (ix2 k c)

/-- max (a + b, 0) · W2 as an array. -/
def reluDense2 (a : FVec Ideal ⟨2, ![100000, 128]⟩ .f32) (b : FVec Ideal ⟨2, ![1, 128]⟩ .f32)
    (w : FVec Ideal ⟨2, ![128, 40]⟩ .f32) : FVec Ideal ⟨2, ![100000, 40]⟩ .f32 :=
  fun i => reluDense2At a b w ⟨(i 0).val, idx2_lt0 i⟩ ⟨(i 1).val, idx2_lt1 i⟩

/-- Row r of z + b, as a function of the class. -/
def logits (z : FVec Ideal ⟨2, ![100000, 40]⟩ .f32) (b : FVec Ideal ⟨2, ![1, 40]⟩ .f32) (r : Fin 100000) :
    Fin 40 → EReal :=
  fun k => z (ix2 r k) + b (ix2 (0 : Fin 1) k)

/-- The largest entry of a row, the maximum started from the pattern of −∞. -/
def rowMax (y : Fin 40 → EReal) : EReal :=
  (Finset.univ : Finset (Fin 40)).fold max (Ideal.ofBits .f32 0xFF800000#32) y

/-- Entry (r, c) of the row-wise log-softmax of z + b. -/
def logSoftmaxAt (z : FVec Ideal ⟨2, ![100000, 40]⟩ .f32) (b : FVec Ideal ⟨2, ![1, 40]⟩ .f32)
    (r : Fin 100000) (c : Fin 40) : EReal :=
  (logits z b r c - rowMax (logits z b r))
    - Ideal.log (∑ k : Fin 40, Ideal.exp (logits z b r k - rowMax (logits z b r)))

/-- The row-wise log-softmax of z + b as an array. -/
def logSoftmaxRows (z : FVec Ideal ⟨2, ![100000, 40]⟩ .f32) (b : FVec Ideal ⟨2, ![1, 40]⟩ .f32) :
    FVec Ideal ⟨2, ![100000, 40]⟩ .f32 :=
  fun i => logSoftmaxAt z b ⟨(i 0).val, idx2_lt0 i⟩ ⟨(i 1).val, idx2_lt1 i⟩

theorem dense1_ix2 (x : FVec Ideal ⟨2, ![100000, 512]⟩ .f32) (w : FVec Ideal ⟨2, ![512, 128]⟩ .f32)
    (r : Fin 100000) (c : Fin 128) : dense1 x w (ix2 r c) = dense1At x w r c := rfl

theorem reluDense2_ix2 (a : FVec Ideal ⟨2, ![100000, 128]⟩ .f32) (b : FVec Ideal ⟨2, ![1, 128]⟩ .f32)
    (w : FVec Ideal ⟨2, ![128, 40]⟩ .f32) (r : Fin 100000) (c : Fin 40) :
    reluDense2 a b w (ix2 r c) = reluDense2At a b w r c := rfl

theorem logSoftmaxRows_ix2 (z : FVec Ideal ⟨2, ![100000, 40]⟩ .f32) (b : FVec Ideal ⟨2, ![1, 40]⟩ .f32)
    (r : Fin 100000) (c : Fin 40) : logSoftmaxRows z b (ix2 r c) = logSoftmaxAt z b r c := rfl

end Cert.Spec

end
-- ==== Proof.LibKeepdims.lean ====
/-
  Keepdims forms read at an index, and a lane sum as a plain sum.

  A row-wise reduction with `keepdims=True` leaves a vector [a] that is cast to a column [a, 1] and then broadcast
  across the columns to [a, b]; or, for the other operand of an outer sum, cast to a column [b, 1], transposed to a
  row [1, b] and broadcast down the rows to [a, b]. Read at (p, q) the first is the vector at p and the second the
  vector at q. A `[1, b]` block cast to itself and broadcast down the rows reads its one row at q. And at the
  ideal values a sum along the lanes of an [a, b] array, read at row p, is the plain sum over the row.
  All for any extents.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibKeepdims

open Idealize.ShloMosaic Idealize.ShloMosaic.ValueIdx

variable {α : Type}

/-- A vector [a] as a column [a, 1] broadcast across the columns of [a, b]: at (p, q), the vector at p. -/
theorem column_broadcast_apply {a b : ℕ} (v : (⟨1, ![a]⟩ : Shape).Idx → α)
    (h₁ : (⟨1, ![a]⟩ : Shape).ShapeCasts ⟨2, ![a, 1]⟩) (h₂ : (⟨2, ![a, 1]⟩ : Shape).Broadcasts ⟨2, ![a, b]⟩)
    (p : Fin a) (q : Fin b) :
    broadcastTo ⟨2, ![a, b]⟩ (shapeCast ⟨2, ![a, 1]⟩ v h₁) h₂ (ix2 p q) = v (ix1 p) := by
  refine (broadcastTo_apply _ h₂ (ix2 p q) (ix2 p (0 : Fin 1)) fun ax => ?_).trans
    (shapeCast_apply v h₁ _ _ ?_)
  · match ax with
    | ⟨0, _⟩ =>
      show p.val = if a = 1 then 0 else p.val
      split
      · have := p.isLt; omega
      · rfl
    | ⟨1, _⟩ => rfl
  · rw [Shape.rowMajor_val_one, Shape.rowMajor_val_two]
    show p.val = p.val * 1 + 0
    omega

/-- A vector [b] as a column [b, 1], transposed to a row [1, b] and broadcast down the rows of [a, b]: at (p, q),
    the vector at q. -/
theorem row_of_column_broadcast_apply {a b : ℕ} (v : (⟨1, ![b]⟩ : Shape).Idx → α)
    (h₁ : (⟨1, ![b]⟩ : Shape).ShapeCasts ⟨2, ![b, 1]⟩) (h₃ : (⟨2, ![b, 1]⟩ : Shape).Transposes [1, 0] ⟨2, ![1, b]⟩)
    (h₂ : (⟨2, ![1, b]⟩ : Shape).Broadcasts ⟨2, ![a, b]⟩) (p : Fin a) (q : Fin b) :
    broadcastTo ⟨2, ![a, b]⟩ (transpose ⟨2, ![1, b]⟩ [1, 0] (shapeCast ⟨2, ![b, 1]⟩ v h₁) h₃) h₂ (ix2 p q) = v (ix1 q) := by
  refine (broadcastTo_1b_ab_apply _ h₂ p q).trans ((transpose_ix2_apply _ h₃ (0 : Fin 1) q).trans
    (shapeCast_apply v h₁ _ _ ?_))
  rw [Shape.rowMajor_val_one, Shape.rowMajor_val_two]
  show q.val = q.val * 1 + 0
  omega

/-- A [1, b] block cast to its own shape and broadcast down the rows of [a, b]: at (p, q), its one row at q. -/
theorem row_broadcast_apply {a b : ℕ} (v : (⟨2, ![1, b]⟩ : Shape).Idx → α)
    (h₁ : (⟨2, ![1, b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix2 (0 : Fin 1) q) :=
  (broadcastTo_1b_ab_apply _ h₂ p q).trans (congrFun (shapeCast_self v h₁) _)

/-- At the ideal values the sum along the lanes of an [a, b] array from the zero pattern, read at row p, is the
    sum of the row. -/
theorem lane_sum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec (FTy.bits .f32)) = FKind.add.neutral .f32 hφ) (p : Fin a) :
    multiReduction (F := Ideal) .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src
      (funext fun ax => Fin.ext (by match ax with | ⟨0, _⟩ => rfl | ⟨1, _⟩ => rfl)))

end Cert.LibKeepdims

end
-- ==== Proof.PayMatmul.lean ====
/-
  The two matrix-product bodies read at an index, on the extended reals.

  The first body stores the product of its block of x with W1, both passed through a change of float format that is
  the identity here, into a zero accumulator: entry (p, q) is the sum over the 512 features of x[p, k] · W1[k, q].
  The second adds the one-row bias to its block of the aggregated layer, clamps at zero and multiplies by W2:
  entry (p, q) is the sum over the 128 hidden units of max (a[p, k] + b[0, k], 0) · W2[k, q].
-/
import proofs.«101329_j48601849921727_1_alg».proof.Proof.Gen.KernelIdeal.Skeleton
import proofs.«101329_j48601849921727_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ## The first product: [2000, 512] times [512, 128] -/

/-- The left operand's row coordinate is the output's row. -/
theorem lhs_first_0 (i : S2000x128.Idx) (q : dot_S2000x512_S512x128_S2000x128_1_0_0_1_n_n.contr.Idx) :
    (dot_S2000x512_S512x128_S2000x128_1_0_0_1_n_n.lhsIdx i q 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl

/-- The left operand's column coordinate is the contraction index. -/
theorem lhs_first_1 (i : S2000x128.Idx) (q : dot_S2000x512_S512x128_S2000x128_1_0_0_1_n_n.contr.Idx) :
    (dot_S2000x512_S512x128_S2000x128_1_0_0_1_n_n.lhsIdx i q 1).val = (q ⟨0, by decide⟩).val :=
  dot_S2000x512_S512x128_S2000x128_1_0_0_1_n_n.lhsIdx_val_of_single rfl i q

/-- The right operand's row coordinate is the contraction index. -/
theorem rhs_first_0 (i : S2000x128.Idx) (q : dot_S2000x512_S512x128_S2000x128_1_0_0_1_n_n.contr.Idx) :
    (dot_S2000x512_S512x128_S2000x128_1_0_0_1_n_n.rhsIdx i q 0).val = (q ⟨0, by decide⟩).val :=
  dot_S2000x512_S512x128_S2000x128_1_0_0_1_n_n.rhsIdx_val_of_single rfl i q

/-- The right operand's column coordinate is the output's column. -/
theorem rhs_first_1 (i : S2000x128.Idx) (q : dot_S2000x512_S512x128_S2000x128_1_0_0_1_n_n.contr.Idx) :
    (dot_S2000x512_S512x128_S2000x128_1_0_0_1_n_n.rhsIdx i q 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- The product into the zero accumulator at (p, q): the sum over the contraction index k of the left operand at
    (p, k) times the right operand at (k, q). -/
theorem product_first_apply {φ₁ φ₂ : FTy} (lhs : FVec Ideal S2000x512 φ₁) (rhs : FVec Ideal S512x128 φ₂) (p : Fin 2000) (q : Fin 128) :
    matmul (F := Ideal) dot_S2000x512_S512x128_S2000x128_1_0_0_1_n_n none lhs rhs (constant S2000x128 .f32 0x00000000#32) (ix2 p q)
      = ∑ k : Fin 512, lhs (ix2 p k) * rhs (ix2 k q) := by
  refine (Ideal.matmul_constant_zero_apply dot_S2000x512_S512x128_S2000x128_1_0_0_1_n_n none lhs rhs (ix2 p q)).trans ?_
  rw [← Equiv.sum_comp (ValueIdx.contrEquiv1 dot_S2000x512_S512x128_S2000x128_1_0_0_1_n_n 512 rfl rfl).symm]
  refine Finset.sum_congr rfl fun k _ => ?_
  have hk := ValueIdx.contrEquiv1_symm_val dot_S2000x512_S512x128_S2000x128_1_0_0_1_n_n 512 rfl rfl k
  have el : dot_S2000x512_S512x128_S2000x128_1_0_0_1_n_n.lhsIdx (ix2 p q) ((ValueIdx.contrEquiv1 dot_S2000x512_S512x128_S2000x128_1_0_0_1_n_n 512 rfl rfl).symm k) = ix2 p k := funext fun a => Fin.ext (by
    match a with
    | ⟨0, _⟩ => exact lhs_first_0 _ _
    | ⟨1, _⟩ => exact (lhs_first_1 _ _).trans hk)
  have er : dot_S2000x512_S512x128_S2000x128_1_0_0_1_n_n.rhsIdx (ix2 p q) ((ValueIdx.contrEquiv1 dot_S2000x512_S512x128_S2000x128_1_0_0_1_n_n 512 rfl rfl).symm k) = ix2 k q := funext fun a => Fin.ext (by
    match a with
    | ⟨0, _⟩ => exact (rhs_first_0 _ _).trans hk
    | ⟨1, _⟩ => exact rhs_first_1 _ _)
  rw [el, er]

/-! ## The second product: [2000, 128] times [128, 40] -/

/-- The left operand's row coordinate is the output's row. -/
theorem lhs_second_0 (i : S2000x40.Idx) (q : dot_S2000x128_S128x40_S2000x40_1_0_0_1_n_n.contr.Idx) :
    (dot_S2000x128_S128x40_S2000x40_1_0_0_1_n_n.lhsIdx i q 0).val = (i 0).val := by
  unfold DotDims.lhsIdx
  rw [dif_neg (show ¬(0 : Fin S2000x128.rank) ∈ dot_S2000x128_S128x40_S2000x40_1_0_0_1_n_n.lhsBatch by decide), dif_pos (show (0 : Fin S2000x128.rank) ∈ dot_S2000x128_S128x40_S2000x40_1_0_0_1_n_n.lhsNonContracting by decide)]
  rfl

/-- The left operand's column coordinate is the contraction index. -/
theorem lhs_second_1 (i : S2000x40.Idx) (q : dot_S2000x128_S128x40_S2000x40_1_0_0_1_n_n.contr.Idx) :
    (dot_S2000x128_S128x40_S2000x40_1_0_0_1_n_n.lhsIdx i q 1).val = (q ⟨0, by decide⟩).val :=
  dot_S2000x128_S128x40_S2000x40_1_0_0_1_n_n.lhsIdx_val_of_single rfl i q

/-- The right operand's row coordinate is the contraction index. -/
theorem rhs_second_0 (i : S2000x40.Idx) (q : dot_S2000x128_S128x40_S2000x40_1_0_0_1_n_n.contr.Idx) :
    (dot_S2000x128_S128x40_S2000x40_1_0_0_1_n_n.rhsIdx i q 0).val = (q ⟨0, by decide⟩).val :=
  dot_S2000x128_S128x40_S2000x40_1_0_0_1_n_n.rhsIdx_val_of_single rfl i q

/-- The right operand's column coordinate is the output's column. -/
theorem rhs_second_1 (i : S2000x40.Idx) (q : dot_S2000x128_S128x40_S2000x40_1_0_0_1_n_n.contr.Idx) :
    (dot_S2000x128_S128x40_S2000x40_1_0_0_1_n_n.rhsIdx i q 1).val = (i 1).val := by
  unfold DotDims.rhsIdx
  rw [dif_neg (show ¬(1 : Fin S128x40.rank) ∈ dot_S2000x128_S128x40_S2000x40_1_0_0_1_n_n.rhsBatch by decide), dif_pos (show (1 : Fin S128x40.rank) ∈ dot_S2000x128_S128x40_S2000x40_1_0_0_1_n_n.rhsNonContracting by decide)]
  rfl

/-- The product into the zero accumulator at (p, q): the sum over the contraction index k of the left operand at
    (p, k) times the right operand at (k, q). -/
theorem product_second_apply {φ₁ φ₂ : FTy} (lhs : FVec Ideal S2000x128 φ₁) (rhs : FVec Ideal S128x40 φ₂) (p : Fin 2000) (q : Fin 40) :
    matmul (F := Ideal) dot_S2000x128_S128x40_S2000x40_1_0_0_1_n_n none lhs rhs (constant S2000x40 .f32 0x00000000#32) (ix2 p q)
      = ∑ k : Fin 128, lhs (ix2 p k) * rhs (ix2 k q) := by
  refine (Ideal.matmul_constant_zero_apply dot_S2000x128_S128x40_S2000x40_1_0_0_1_n_n none lhs rhs (ix2 p q)).trans ?_
  rw [← Equiv.sum_comp (ValueIdx.contrEquiv1 dot_S2000x128_S128x40_S2000x40_1_0_0_1_n_n 128 rfl rfl).symm]
  refine Finset.sum_congr rfl fun k _ => ?_
  have hk := ValueIdx.contrEquiv1_symm_val dot_S2000x128_S128x40_S2000x40_1_0_0_1_n_n 128 rfl rfl k
  have el : dot_S2000x128_S128x40_S2000x40_1_0_0_1_n_n.lhsIdx (ix2 p q) ((ValueIdx.contrEquiv1 dot_S2000x128_S128x40_S2000x40_1_0_0_1_n_n 128 rfl rfl).symm k) = ix2 p k := funext fun a => Fin.ext (by
    match a with
    | ⟨0, _⟩ => exact lhs_second_0 _ _
    | ⟨1, _⟩ => exact (lhs_second_1 _ _).trans hk)
  have er : dot_S2000x128_S128x40_S2000x40_1_0_0_1_n_n.rhsIdx (ix2 p q) ((ValueIdx.contrEquiv1 dot_S2000x128_S128x40_S2000x40_1_0_0_1_n_n 128 rfl rfl).symm k) = ix2 k q := funext fun a => Fin.ext (by
    match a with
    | ⟨0, _⟩ => exact (rhs_second_0 _ _).trans hk
    | ⟨1, _⟩ => exact rhs_second_1 _ _)
  rw [el, er]

/-! ## The two bodies -/

/-- The first body's stored value at (p, q): the row of the x block times the column of W1. -/
theorem pay0_apply (x0 : Vec Ideal S2000x512 .f32) (x1 : Vec Ideal S512x128 .f32) (p : Fin 2000) (q : Fin 128) :
    k0_pay1 (F := Ideal) x0 x1 (ix2 p q) = ∑ k : Fin 512, x0 (ix2 p k) * x1 (ix2 k q) := by
  unfold k0_pay1
  exact product_first_apply _ _ p q

/-- The second body's left operand at (p, k): the entry plus the bias row's entry, clamped below at zero. -/
theorem clamped_biased_apply (x0 : Vec Ideal S2000x128 .f32) (x1 : Vec Ideal S1x128 .f32) (p : Fin 2000) (k : Fin 128) :
    maximumf (F := Ideal)
        (addf (shapeCast S2000x128 x0 shapeCasts_S2000x128_S2000x128)
          (broadcastTo S2000x128 (shapeCast S1x128 x1 shapeCasts_S1x128_S1x128) broadcasts_S1x128_S2000x128))
        (broadcast S2000x128 (Scalar.ofBits (F := Ideal) .f32 0x00000000#32)) (ix2 p k)
      = max (x0 (ix2 p k) + x1 (ix2 (0 : Fin 1) k)) (Ideal.ofBits .f32 0x00000000#32) := by
  rw [maximumf_apply, addf_apply, broadcast_apply]
  rw [Cert.LibKeepdims.row_broadcast_apply x1 shapeCasts_S1x128_S1x128 broadcasts_S1x128_S2000x128 p k]
  rw [shapeCast_self x0 shapeCasts_S2000x128_S2000x128]
  rfl

/-- The second body's stored value at (p, q): the clamped, biased row times the column of W2. -/
theorem pay1_apply (x0 : Vec Ideal S2000x128 .f32) (x1 : Vec Ideal S1x128 .f32) (x2 : Vec Ideal S128x40 .f32)
    (p : Fin 2000) (q : Fin 40) :
    k1_pay1 (F := Ideal) x0 x1 x2 (ix2 p q)
      = ∑ k : Fin 128, max (x0 (ix2 p k) + x1 (ix2 (0 : Fin 1) k)) (Ideal.ofBits .f32 0x00000000#32) * x2 (ix2 k q) := by
  unfold k1_pay1
  refine (product_second_apply _ _ p q).trans ?_
  refine Finset.sum_congr rfl fun k _ => ?_
  exact congrArg (· * x2 (ix2 k q)) (clamped_biased_apply x0 x1 p k)

end Cert.KernelIdeal.Pay

end
-- ==== Proof.BlocksDense1.lean ====
/-
  The first region's result array, whole: x · W1.

  Grid point t fetches rows 2000·t … 2000·t + 1999 of x (all 512 features) and the whole of W1, and writes back rows
  2000·t … 2000·t + 1999 of the result (all 128 columns). Entry (p, q) of what it writes is the sum over the features
  of x[2000·t + p, k] · W1[k, q], which is entry (2000·t + p, q) of x · W1; row r of the result lies in the block
  of point r / 2000, so the fifty blocks cover the array and it ends holding x · W1.
-/
import proofs.«101329_j48601849921727_1_alg».proof.Proof.Gen.KernelIdeal.Frame
import proofs.«101329_j48601849921727_1_alg».proof.Proof.Spec
import proofs.«101329_j48601849921727_1_alg».proof.Proof.PayMatmul
import Idealize.ShloMosaic.Lib.Pipeline.Value
import Idealize.ShloMosaic.Lib.ValueIdx

set_option maxRecDepth 16384

noncomputable section

namespace Cert.KernelIdeal.Dense1

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

theorem zeroOffset : (![0, 0] : Fin 2 → Nat) = fun _ => 0 := funext fun a => by fin_cases a <;> rfl

/-- Where each window's block sits at grid point t: the x block and the result block at row-block t, W1 whole. -/
theorem blockIndex : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The arrays the region reads, and the blocks of them a point holds, at their literal types. -/
abbrev xArr (c : Dev nD) : FVec Ideal ⟨2, ![100000, 512]⟩ .f32 := V c main_arg0
abbrev wArr (c : Dev nD) : FVec Ideal ⟨2, ![512, 128]⟩ .f32 := V c main_arg3
abbrev xBlock (c : Dev nD) (t : Fin cfg0.N) : Vec Ideal S2000x512 .f32 := iblk0 V c 0 t
abbrev wBlock (c : Dev nD) (t : Fin cfg0.N) : Vec Ideal S512x128 .f32 := iblk0 V c 1 t

/-- Row p of point t's x block is row 2000·t + p of x. -/
theorem xBlock_apply (c : Dev nD) (t : Fin cfg0.N) (p : Fin 2000) (k : Fin 512) (hp : t.val * 2000 + p.val < 100000) :
    xBlock V c t (ix2 p k) = xArr V c (ix2 ⟨t.val * 2000 + p.val, hp⟩ k) := by
  obtain ⟨e0, e1, -, -, -, -⟩ := blockIndex t
  show V c main_arg0 (((cfg0.win 0).blk t).view.emb (ix2 p k)) = V c main_arg0 _
  refine congrArg _ (funext fun a => Fin.ext ?_)
  match a with
  | ⟨0, _⟩ => show win0_0.index t (0 : Fin 2) * 2000 + 1 * p.val = t.val * 2000 + p.val; omega
  | ⟨1, _⟩ => show win0_0.index t (1 : Fin 2) * 512 + 1 * k.val = k.val; omega

/-- Every point's W1 block is W1. -/
theorem wBlock_apply (c : Dev nD) (t : Fin cfg0.N) (k : Fin 512) (q : Fin 128) :
    wBlock V c t (ix2 k q) = wArr V c (ix2 k q) := by
  obtain ⟨-, -, e2, e3, -, -⟩ := blockIndex t
  show V c main_arg3 (((cfg0.win 1).blk t).view.emb (ix2 k q)) = V c main_arg3 _
  refine congrArg _ (funext fun a => Fin.ext ?_)
  match a with
  | ⟨0, _⟩ => show win0_1.index t (0 : Fin 2) * 512 + 1 * k.val = k.val; omega
  | ⟨1, _⟩ => show win0_1.index t (1 : Fin 2) * 128 + 1 * q.val = q.val; omega

/-- Entry (p, q) of point t's result block is entry (2000·t + p, q) of the array. -/
theorem outIndex (t : Fin cfg0.N) (p : Fin 2000) (q : Fin 128) (hp : t.val * 2000 + p.val < 100000) :
    ((cfg0.win 2).blk t).view.emb (ix2 p q) = (ix2 (⟨t.val * 2000 + p.val, hp⟩ : Fin 100000) q : S100000x128.Idx) := by
  obtain ⟨-, -, -, -, e4, e5⟩ := blockIndex t
  refine funext fun a => Fin.ext ?_
  match a with
  | ⟨0, _⟩ => show win0_2.index t (0 : Fin 2) * 2000 + 1 * p.val = t.val * 2000 + p.val; omega
  | ⟨1, _⟩ => show win0_2.index t (1 : Fin 2) * 128 + 1 * q.val = q.val; omega

/-- What point t writes back is block t of x · W1. -/
theorem flushed_eq (c : Dev nD) (t : Fin cfg0.N) :
    (dat0 V c).flushed 2 t = ((cfg0.win 2).blk t).view.read (Elt Ideal) (Cert.Spec.dense1 (xArr V c) (wArr V c)) := by
  show (cfg0.win 2).cut (grid0.coords t) ((dat0 V c).after 2 t) = _
  rw [after0_2]
  unfold out0_2
  rw [View.canon_unit_zero zeroOffset]
  simp only [View.ld_unit_zero (S := S2000x512) zeroOffset, View.ld_unit_zero (S := S512x128) zeroOffset]
  funext j
  obtain ⟨p, q, rfl⟩ : ∃ (p : Fin 2000) (q : Fin 128), j = ix2 p q := ⟨j 0, j 1, eq_ix2 j⟩
  have ht : t.val < 50 := t.isLt
  have hp : t.val * 2000 + p.val < 100000 := by have := p.isLt; omega
  show k0_pay1 (xBlock V c t) (wBlock V c t) (ix2 p q)
    = Cert.Spec.dense1 (xArr V c) (wArr V c) (((cfg0.win 2).blk t).view.emb (ix2 p q))
  rw [outIndex t p q hp, Cert.Spec.dense1_ix2]
  refine (Pay.pay0_apply (xBlock V c t) (wBlock V c t) p q).trans ?_
  unfold Cert.Spec.dense1At
  exact Finset.sum_congr rfl fun k _ => by rw [xBlock_apply V c t p k hp, wBlock_apply V c t k q]

/-- An index of the result is in point t's block iff each coordinate is in the block's range on its axis. -/
theorem mem_block (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- Row r of the result is in the block of point r / 2000. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  let t : Fin cfg0.N := ⟨(i 0).val / 2000, by show (i 0).val / 2000 < 50; omega⟩
  obtain ⟨-, -, -, -, e4, e5⟩ := blockIndex t
  have e4' : win0_2.index t (0 : Fin 2) = (i 0).val / 2000 := e4
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The first region leaves x · W1 in its result array. -/
theorem result (c : Dev nD) : (dat0 V c).arrAt 2 cfg0.N = Cert.Spec.dense1 (V c main_arg0) (V c main_arg3) :=
  (dat0 V c).arrAt_eq_of_cover 2 (Cert.Spec.dense1 (xArr V c) (wArr V c)) (fun t _ => flushed_eq V c t) covered

end Cert.KernelIdeal.Dense1

end
-- ==== Proof.BlocksDense2.lean ====
/-
  The second region's result array, whole: max (a + b, 0) · W2.

  Grid point t fetches rows 2000·t … 2000·t + 1999 of the aggregated first layer a (all 128 hidden units), the one
  bias row b and the whole of W2, and writes back the same rows of the result (all 40 classes). Entry (p, q) of what
  it writes is the sum over the hidden units of max (a[2000·t + p, k] + b[0, k], 0) · W2[k, q]; row r of the result
  lies in the block of point r / 2000, so the fifty blocks cover the array.
-/
import proofs.«101329_j48601849921727_1_alg».proof.Proof.Gen.KernelIdeal.Frame
import proofs.«101329_j48601849921727_1_alg».proof.Proof.Spec
import proofs.«101329_j48601849921727_1_alg».proof.Proof.PayMatmul
import Idealize.ShloMosaic.Lib.Pipeline.Value
import Idealize.ShloMosaic.Lib.ValueIdx

set_option maxRecDepth 16384

noncomputable section

namespace Cert.KernelIdeal.Dense2

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

theorem zeroOffset : (![0, 0] : Fin 2 → Nat) = fun _ => 0 := funext fun a => by fin_cases a <;> rfl

/-- Where each window's block sits at grid point t: the aggregate's block and the result block at row-block t, the
    bias row and W2 whole. -/
theorem blockIndex : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The arrays the region reads, and the blocks of them a point holds, at their literal types. -/
abbrev aArr (c : Dev nD) : FVec Ideal ⟨2, ![100000, 128]⟩ .f32 := V c main_v17
abbrev bArr (c : Dev nD) : FVec Ideal ⟨2, ![1, 128]⟩ .f32 := V c main_v18
abbrev wArr (c : Dev nD) : FVec Ideal ⟨2, ![128, 40]⟩ .f32 := V c main_arg5
abbrev aBlock (c : Dev nD) (t : Fin cfg1.N) : Vec Ideal S2000x128 .f32 := iblk1 V c 0 t
abbrev bBlock (c : Dev nD) (t : Fin cfg1.N) : Vec Ideal S1x128 .f32 := iblk1 V c 1 t
abbrev wBlock (c : Dev nD) (t : Fin cfg1.N) : Vec Ideal S128x40 .f32 := iblk1 V c 2 t

/-- Row p of point t's block of the aggregate is row 2000·t + p of it. -/
theorem aBlock_apply (c : Dev nD) (t : Fin cfg1.N) (p : Fin 2000) (k : Fin 128) (hp : t.val * 2000 + p.val < 100000) :
    aBlock V c t (ix2 p k) = aArr V c (ix2 ⟨t.val * 2000 + p.val, hp⟩ k) := by
  obtain ⟨e0, e1, -, -, -, -, -, -⟩ := blockIndex t
  show V c main_v17 (((cfg1.win 0).blk t).view.emb (ix2 p k)) = V c main_v17 _
  refine congrArg _ (funext fun a => Fin.ext ?_)
  match a with
  | ⟨0, _⟩ => show win1_0.index t (0 : Fin 2) * 2000 + 1 * p.val = t.val * 2000 + p.val; omega
  | ⟨1, _⟩ => show win1_0.index t (1 : Fin 2) * 128 + 1 * k.val = k.val; omega

/-- Every point's bias block is the bias row. -/
theorem bBlock_apply (c : Dev nD) (t : Fin cfg1.N) (k : Fin 128) :
    bBlock V c t (ix2 (0 : Fin 1) k) = bArr V c (ix2 (0 : Fin 1) k) := by
  obtain ⟨-, -, e2, e3, -, -, -, -⟩ := blockIndex t
  show V c main_v18 (((cfg1.win 1).blk t).view.emb (ix2 (0 : Fin 1) k)) = V c main_v18 _
  refine congrArg _ (funext fun a => Fin.ext ?_)
  match a with
  | ⟨0, _⟩ => show win1_1.index t (0 : Fin 2) * 1 + 1 * (0 : Fin 1).val = (0 : Fin 1).val; omega
  | ⟨1, _⟩ => show win1_1.index t (1 : Fin 2) * 128 + 1 * k.val = k.val; omega

/-- Every point's W2 block is W2. -/
theorem wBlock_apply (c : Dev nD) (t : Fin cfg1.N) (k : Fin 128) (q : Fin 40) :
    wBlock V c t (ix2 k q) = wArr V c (ix2 k q) := by
  obtain ⟨-, -, -, -, e4, e5, -, -⟩ := blockIndex t
  show V c main_arg5 (((cfg1.win 2).blk t).view.emb (ix2 k q)) = V c main_arg5 _
  refine congrArg _ (funext fun a => Fin.ext ?_)
  match a with
  | ⟨0, _⟩ => show win1_2.index t (0 : Fin 2) * 128 + 1 * k.val = k.val; omega
  | ⟨1, _⟩ => show win1_2.index t (1 : Fin 2) * 40 + 1 * q.val = q.val; omega

/-- Entry (p, q) of point t's result block is entry (2000·t + p, q) of the array. -/
theorem outIndex (t : Fin cfg1.N) (p : Fin 2000) (q : Fin 40) (hp : t.val * 2000 + p.val < 100000) :
    ((cfg1.win 3).blk t).view.emb (ix2 p q) = (ix2 (⟨t.val * 2000 + p.val, hp⟩ : Fin 100000) q : S100000x40.Idx) := by
  obtain ⟨-, -, -, -, -, -, e6, e7⟩ := blockIndex t
  refine funext fun a => Fin.ext ?_
  match a with
  | ⟨0, _⟩ => show win1_3.index t (0 : Fin 2) * 2000 + 1 * p.val = t.val * 2000 + p.val; omega
  | ⟨1, _⟩ => show win1_3.index t (1 : Fin 2) * 40 + 1 * q.val = q.val; omega

/-- What point t writes back is block t of max (a + b, 0) · W2. -/
theorem flushed_eq (c : Dev nD) (t : Fin cfg1.N) :
    (dat1 V c).flushed 3 t
      = ((cfg1.win 3).blk t).view.read (Elt Ideal) (Cert.Spec.reluDense2 (aArr V c) (bArr V c) (wArr V c)) := by
  show (cfg1.win 3).cut (grid1.coords t) ((dat1 V c).after 3 t) = _
  rw [after1_3]
  unfold out1_3
  rw [View.canon_unit_zero zeroOffset]
  simp only [View.ld_unit_zero (S := S2000x128) zeroOffset, View.ld_unit_zero (S := S1x128) zeroOffset,
    View.ld_unit_zero (S := S128x40) zeroOffset]
  funext j
  obtain ⟨p, q, rfl⟩ : ∃ (p : Fin 2000) (q : Fin 40), j = ix2 p q := ⟨j 0, j 1, eq_ix2 j⟩
  have ht : t.val < 50 := t.isLt
  have hp : t.val * 2000 + p.val < 100000 := by have := p.isLt; omega
  show k1_pay1 (aBlock V c t) (bBlock V c t) (wBlock V c t) (ix2 p q)
    = Cert.Spec.reluDense2 (aArr V c) (bArr V c) (wArr V c) (((cfg1.win 3).blk t).view.emb (ix2 p q))
  rw [outIndex t p q hp, Cert.Spec.reluDense2_ix2]
  refine (Pay.pay1_apply (aBlock V c t) (bBlock V c t) (wBlock V c t) p q).trans ?_
  unfold Cert.Spec.reluDense2At
  exact Finset.sum_congr rfl fun k _ => by
    rw [aBlock_apply V c t p k hp, bBlock_apply V c t k, wBlock_apply V c t k q]

/-- An index of the result is in point t's block iff each coordinate is in the block's range on its axis. -/
theorem mem_block (t : Fin cfg1.N) (i : S100000x40.Idx) :
    i ∈ ((cfg1.win 3).blk t).view.set ↔ ∀ a : Fin 2, win1_3.index t a * S2000x40.size a ≤ (i a).val ∧ (i a).val < win1_3.index t a * S2000x40.size a + S2000x40.size a := by
  show i ∈ ((View.whole main_v19).slice (win1_3.rect t)).set ↔ _
  rw [View.set_slice_whole, Rect.mem_set_unit]
  exact Iff.rfl

/-- Row r of the result is in the block of point r / 2000. -/
theorem covered (i : S100000x40.Idx) :
    ∃ t : Fin cfg1.N, (cfg1.win 3).flush t = true ∧ i ∈ ((cfg1.win 3).blk t).view.set := by
  have hi0 : (i 0).val < 100000 := (i 0).isLt
  have hi1 : (i 1).val < 40 := (i 1).isLt
  let t : Fin cfg1.N := ⟨(i 0).val / 2000, by show (i 0).val / 2000 < 50; omega⟩
  obtain ⟨-, -, -, -, -, -, e6, e7⟩ := blockIndex t
  have e6' : win1_3.index t (0 : Fin 2) = (i 0).val / 2000 := e6
  refine ⟨t, flush1_3 t, ?_⟩
  rw [mem_block]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 40 ≤ (i 1).val ∧ (i 1).val < win1_3.index t (1 : Fin 2) * 40 + 40; omega

/-- The second region leaves max (a + b, 0) · W2 in its result array. -/
theorem result (c : Dev nD) :
    (dat1 V c).arrAt 3 cfg1.N = Cert.Spec.reluDense2 (V c main_v17) (V c main_v18) (V c main_arg5) :=
  (dat1 V c).arrAt_eq_of_cover 3 (Cert.Spec.reluDense2 (aArr V c) (bArr V c) (wArr V c)) (fun t _ => flushed_eq V c t) covered

end Cert.KernelIdeal.Dense2

end
-- ==== Proof.PaySoftmax.lean ====
/-
  The log-softmax body read at an index, on the extended reals.

  With y the row p of the block plus the one-row bias and M its largest entry (the maximum started from −∞), the
  body stores (y q − M) − log Σ_k exp (y k − M) at (p, q): the lane maximum and the lane sum are kept as a column,
  cast to [2000, 1] and broadcast across the 40 classes.
-/
import proofs.«101329_j48601849921727_1_alg».proof.Proof.Gen.KernelIdeal.Skeleton
import proofs.«101329_j48601849921727_1_alg».proof.Proof.LibKeepdims
import proofs.«101329_j48601849921727_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-- Row p of the block plus the bias row, as a function of the class. -/
def blockLogits (x0 : Vec Ideal S2000x40 .f32) (x1 : Vec Ideal S1x40 .f32) (p : Fin 2000) : Fin 40 → EReal :=
  fun k => x0 (ix2 p k) + x1 (ix2 (0 : Fin 1) k)

/-- At the ideal values the maximum along the lanes of an [a, b] array, read at row p, is the fold of max over the
    row from the value of the starting pattern. -/
theorem lane_max_apply {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.maximumf.neutral .f32 hφ) (p : Fin a) :
    multiReduction (F := Ideal) .maximumf [1] ⟨1, ![a]⟩ src acc h hφ hacc (ix1 p)
      = (Finset.univ : Finset (Fin b)).fold max (Ideal.ofBits .f32 acc) (fun k => src (ix2 p k)) :=
  (Ideal.multiReduction_maximumf_single src acc h hφ hacc (ix1 p)).trans
    (congrArg ((Finset.univ : Finset (Fin b)).fold max (Ideal.ofBits .f32 acc))
      (funext fun k => congrArg src
        (funext fun ax => Fin.ext (by match ax with | ⟨0, _⟩ => rfl | ⟨1, _⟩ => rfl))))

/-- The block plus the bias row broadcast down the rows, at (p, k): entry k of row p of the logits. -/
theorem biased_apply (x0 : Vec Ideal S2000x40 .f32) (x1 : Vec Ideal S1x40 .f32) (p : Fin 2000) (k : Fin 40) :
    addf (F := Ideal) (φ := .f32) (shapeCast S2000x40 x0 shapeCasts_S2000x40_S2000x40)
        (broadcastTo S2000x40 (shapeCast S1x40 x1 shapeCasts_S1x40_S1x40) broadcasts_S1x40_S2000x40) (ix2 p k)
      = blockLogits x0 x1 p k :=
  (addf_apply _ _ _).trans
    (congrArg₂ (· + ·) (congrFun (shapeCast_self x0 shapeCasts_S2000x40_S2000x40) (ix2 p k))
      (Cert.LibKeepdims.row_broadcast_apply x1 shapeCasts_S1x40_S1x40 broadcasts_S1x40_S2000x40 p k))

/-- The log-softmax of the rows of any [2000, 40] array y, as the body writes it, at (p, q): with M the largest entry
    of row p, (y (p, q) − M) − log Σ_k exp (y (p, k) − M). -/
theorem rows_apply (y : FVec Ideal S2000x40 .f32) (p : Fin 2000) (q : Fin 40) :
    subf (F := Ideal)
        (subf y (broadcastTo S2000x40 (shapeCast S2000x1
          (multiReduction .maximumf [1] S2000 y 0xFF800000#32 reduces_S2000x40_S2000 (.inl rfl) rfl)
          shapeCasts_S2000_S2000x1) broadcasts_S2000x1_S2000x40))
        (broadcastTo S2000x40 (log (shapeCast S2000x1
          (multiReduction .add [1] S2000
            (exp (subf y (broadcastTo S2000x40 (shapeCast S2000x1
              (multiReduction .maximumf [1] S2000 y 0xFF800000#32 reduces_S2000x40_S2000 (.inl rfl) rfl)
              shapeCasts_S2000_S2000x1) broadcasts_S2000x1_S2000x40)))
            0x00000000#32 reduces_S2000x40_S2000 (.inl rfl) rfl)
          shapeCasts_S2000_S2000x1)) broadcasts_S2000x1_S2000x40) (ix2 p q)
      = (y (ix2 p q) - Cert.Spec.rowMax (fun k => y (ix2 p k)))
        - Ideal.log (∑ k : Fin 40, Ideal.exp (y (ix2 p k) - Cert.Spec.rowMax (fun k => y (ix2 p k)))) := by
  -- the centred array at (p, k)
  have hc : ∀ k : Fin 40,
      subf (F := Ideal) y (broadcastTo S2000x40 (shapeCast S2000x1
          (multiReduction .maximumf [1] S2000 y 0xFF800000#32 reduces_S2000x40_S2000 (.inl rfl) rfl)
          shapeCasts_S2000_S2000x1) broadcasts_S2000x1_S2000x40) (ix2 p k)
        = y (ix2 p k) - Cert.Spec.rowMax (fun k => y (ix2 p k)) := fun k =>
    (subf_apply _ _ _).trans (congrArg (y (ix2 p k) - ·)
      ((Cert.LibKeepdims.column_broadcast_apply _ shapeCasts_S2000_S2000x1 broadcasts_S2000x1_S2000x40 p k).trans
        (lane_max_apply y _ reduces_S2000x40_S2000 (.inl rfl) rfl p)))
  refine (subf_apply _ _ _).trans ?_
  refine congrArg₂ (· - ·) (hc q) ?_
  -- the logarithm acts entrywise, so it passes under the cast to a column
  refine (Cert.LibKeepdims.column_broadcast_apply
    (log (multiReduction (F := Ideal) .add [1] S2000 _ 0x00000000#32 reduces_S2000x40_S2000 (.inl rfl) rfl))
    shapeCasts_S2000_S2000x1 broadcasts_S2000x1_S2000x40 p q).trans ?_
  show Ideal.log _ = Ideal.log _
  refine congrArg Ideal.log ?_
  refine (Cert.LibKeepdims.lane_sum_apply _ reduces_S2000x40_S2000 (.inl rfl) rfl p).trans ?_
  exact Finset.sum_congr rfl fun k _ => congrArg Ideal.exp (hc k)

/-- The third body's stored value at (p, q). -/
theorem pay2_apply (x0 : Vec Ideal S2000x40 .f32) (x1 : Vec Ideal S1x40 .f32) (p : Fin 2000) (q : Fin 40) :
    k2_pay1 (F := Ideal) x0 x1 (ix2 p q)
      = (blockLogits x0 x1 p q - Cert.Spec.rowMax (blockLogits x0 x1 p))
        - Ideal.log (∑ k : Fin 40, Ideal.exp (blockLogits x0 x1 p k - Cert.Spec.rowMax (blockLogits x0 x1 p))) := by
  have hrow : (fun k => addf (F := Ideal) (φ := .f32) (shapeCast S2000x40 x0 shapeCasts_S2000x40_S2000x40)
        (broadcastTo S2000x40 (shapeCast S1x40 x1 shapeCasts_S1x40_S1x40) broadcasts_S1x40_S2000x40) (ix2 p k))
      = blockLogits x0 x1 p := funext fun k => biased_apply x0 x1 p k
  unfold k2_pay1
  refine (rows_apply _ p q).trans ?_
  rw [hrow, biased_apply x0 x1 p q]
  exact congrArg (fun t => (blockLogits x0 x1 p q - Cert.Spec.rowMax (blockLogits x0 x1 p)) - Ideal.log t)
    (Finset.sum_congr rfl fun k _ => by rw [biased_apply x0 x1 p k])

end Cert.KernelIdeal.Pay

end
-- ==== Proof.BlocksSoftmax.lean ====
/-
  The third region's result array, whole: the row-wise log-softmax of z + b.

  Grid point t fetches rows 2000·t … 2000·t + 1999 of the aggregated second layer z (all 40 classes) and the one bias
  row b, and writes back the same rows of the result. A row of the block plus the bias row is the row 2000·t + p of
  z + b, so entry (p, q) of what the point writes — the row's entry less the row's maximum less the logarithm of the sum
  of the exponentials of the row less its maximum — is entry (2000·t + p, q) of the log-softmax; row r of the result
  lies in the block of point r / 2000, so the fifty blocks cover the array.
-/
import proofs.«101329_j48601849921727_1_alg».proof.Proof.Gen.KernelIdeal.Frame
import proofs.«101329_j48601849921727_1_alg».proof.Proof.Spec
import proofs.«101329_j48601849921727_1_alg».proof.Proof.PaySoftmax
import Idealize.ShloMosaic.Lib.Pipeline.Value
import Idealize.ShloMosaic.Lib.ValueIdx

set_option maxRecDepth 16384

noncomputable section

namespace Cert.KernelIdeal.Softmax

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

theorem zeroOffset : (![0, 0] : Fin 2 → Nat) = fun _ => 0 := funext fun a => by fin_cases a <;> rfl

/-- Where each window's block sits at grid point t: the aggregate's block and the result block at row-block t, the
    bias row whole. -/
theorem blockIndex : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The arrays the region reads, and the blocks of them a point holds, at their literal types. -/
abbrev zArr (c : Dev nD) : FVec Ideal ⟨2, ![100000, 40]⟩ .f32 := V c main_v36
abbrev bArr (c : Dev nD) : FVec Ideal ⟨2, ![1, 40]⟩ .f32 := V c main_v37
abbrev zBlock (c : Dev nD) (t : Fin cfg2.N) : Vec Ideal S2000x40 .f32 := iblk2 V c 0 t
abbrev bBlock (c : Dev nD) (t : Fin cfg2.N) : Vec Ideal S1x40 .f32 := iblk2 V c 1 t

/-- Row p of point t's block of the aggregate is row 2000·t + p of it. -/
theorem zBlock_apply (c : Dev nD) (t : Fin cfg2.N) (p : Fin 2000) (k : Fin 40) (hp : t.val * 2000 + p.val < 100000) :
    zBlock V c t (ix2 p k) = zArr V c (ix2 ⟨t.val * 2000 + p.val, hp⟩ k) := by
  obtain ⟨e0, e1, -, -, -, -⟩ := blockIndex t
  show V c main_v36 (((cfg2.win 0).blk t).view.emb (ix2 p k)) = V c main_v36 _
  refine congrArg _ (funext fun a => Fin.ext ?_)
  match a with
  | ⟨0, _⟩ => show win2_0.index t (0 : Fin 2) * 2000 + 1 * p.val = t.val * 2000 + p.val; omega
  | ⟨1, _⟩ => show win2_0.index t (1 : Fin 2) * 40 + 1 * k.val = k.val; omega

/-- Every point's bias block is the bias row. -/
theorem bBlock_apply (c : Dev nD) (t : Fin cfg2.N) (k : Fin 40) :
    bBlock V c t (ix2 (0 : Fin 1) k) = bArr V c (ix2 (0 : Fin 1) k) := by
  obtain ⟨-, -, e2, e3, -, -⟩ := blockIndex t
  show V c main_v37 (((cfg2.win 1).blk t).view.emb (ix2 (0 : Fin 1) k)) = V c main_v37 _
  refine congrArg _ (funext fun a => Fin.ext ?_)
  match a with
  | ⟨0, _⟩ => show win2_1.index t (0 : Fin 2) * 1 + 1 * (0 : Fin 1).val = (0 : Fin 1).val; omega
  | ⟨1, _⟩ => show win2_1.index t (1 : Fin 2) * 40 + 1 * k.val = k.val; omega

/-- A row of the block plus the bias row is the corresponding row of z + b. -/
theorem blockLogits_eq (c : Dev nD) (t : Fin cfg2.N) (p : Fin 2000) (hp : t.val * 2000 + p.val < 100000) :
    Pay.blockLogits (zBlock V c t) (bBlock V c t) p = Cert.Spec.logits (zArr V c) (bArr V c) ⟨t.val * 2000 + p.val, hp⟩ := by
  funext k
  show zBlock V c t (ix2 p k) + bBlock V c t (ix2 (0 : Fin 1) k) = zArr V c (ix2 ⟨t.val * 2000 + p.val, hp⟩ k) + bArr V c (ix2 (0 : Fin 1) k)
  rw [zBlock_apply V c t p k hp, bBlock_apply V c t k]

/-- Entry (p, q) of point t's result block is entry (2000·t + p, q) of the array. -/
theorem outIndex (t : Fin cfg2.N) (p : Fin 2000) (q : Fin 40) (hp : t.val * 2000 + p.val < 100000) :
    ((cfg2.win 2).blk t).view.emb (ix2 p q) = (ix2 (⟨t.val * 2000 + p.val, hp⟩ : Fin 100000) q : S100000x40.Idx) := by
  obtain ⟨-, -, -, -, e4, e5⟩ := blockIndex t
  refine funext fun a => Fin.ext ?_
  match a with
  | ⟨0, _⟩ => show win2_2.index t (0 : Fin 2) * 2000 + 1 * p.val = t.val * 2000 + p.val; omega
  | ⟨1, _⟩ => show win2_2.index t (1 : Fin 2) * 40 + 1 * q.val = q.val; omega

/-- What point t writes back is block t of the row-wise log-softmax of z + b. -/
theorem flushed_eq (c : Dev nD) (t : Fin cfg2.N) :
    (dat2 V c).flushed 2 t
      = ((cfg2.win 2).blk t).view.read (Elt Ideal) (Cert.Spec.logSoftmaxRows (zArr V c) (bArr V c)) := by
  show (cfg2.win 2).cut (grid2.coords t) ((dat2 V c).after 2 t) = _
  rw [after2_2]
  unfold out2_2
  rw [View.canon_unit_zero zeroOffset]
  simp only [View.ld_unit_zero (S := S2000x40) zeroOffset, View.ld_unit_zero (S := S1x40) zeroOffset]
  funext j
  obtain ⟨p, q, rfl⟩ : ∃ (p : Fin 2000) (q : Fin 40), j = ix2 p q := ⟨j 0, j 1, eq_ix2 j⟩
  have ht : t.val < 50 := t.isLt
  have hp : t.val * 2000 + p.val < 100000 := by have := p.isLt; omega
  show k2_pay1 (zBlock V c t) (bBlock V c t) (ix2 p q)
    = Cert.Spec.logSoftmaxRows (zArr V c) (bArr V c) (((cfg2.win 2).blk t).view.emb (ix2 p q))
  rw [outIndex t p q hp, Cert.Spec.logSoftmaxRows_ix2]
  refine (Pay.pay2_apply (zBlock V c t) (bBlock V c t) p q).trans ?_
  rw [blockLogits_eq V c t p hp]
  rfl

/-- An index of the result is in point t's block iff each coordinate is in the block's range on its axis. -/
theorem mem_block (t : Fin cfg2.N) (i : S100000x40.Idx) :
    i ∈ ((cfg2.win 2).blk t).view.set ↔ ∀ a : Fin 2, win2_2.index t a * S2000x40.size a ≤ (i a).val ∧ (i a).val < win2_2.index t a * S2000x40.size a + S2000x40.size a := by
  show i ∈ ((View.whole main_v38).slice (win2_2.rect t)).set ↔ _
  rw [View.set_slice_whole, Rect.mem_set_unit]
  exact Iff.rfl

/-- Row r of the result is in the block of point r / 2000. -/
theorem covered (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  let t : Fin cfg2.N := ⟨(i 0).val / 2000, by show (i 0).val / 2000 < 50; omega⟩
  obtain ⟨-, -, -, -, e4, e5⟩ := blockIndex t
  have e4' : win2_2.index t (0 : Fin 2) = (i 0).val / 2000 := e4
  refine ⟨t, flush2_2 t, ?_⟩
  rw [mem_block]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 40 ≤ (i 1).val ∧ (i 1).val < win2_2.index t (1 : Fin 2) * 40 + 40; omega

/-- The third region leaves the row-wise log-softmax of z + b in its result array. -/
theorem result (c : Dev nD) :
    (dat2 V c).arrAt 2 cfg2.N = Cert.Spec.logSoftmaxRows (V c main_v36) (V c main_v37) :=
  (dat2 V c).arrAt_eq_of_cover 2 (Cert.Spec.logSoftmaxRows (zArr V c) (bArr V c)) (fun t _ => flushed_eq V c t) covered

end Cert.KernelIdeal.Softmax

end
-- ==== Proof.KernelValue.lean ====
/-
  What the kernel program leaves in its result array, as a function of the launch memory.

  Reading the run backwards from the last boundary: the result array is what the third region leaves, the row-wise
  log-softmax of its two inputs; the first of these is what the host operations between the regions make of the
  second region's result — the weighted neighbourhood sum —, the other the last bias as one row; the second region
  leaves max (a + b, 0) · W2 of the neighbourhood sum of what the first region leaves, x · W1. No host operation and
  no region writes an argument array, so each is read back as launched.
-/
import proofs.«101329_j48601849921727_1_alg».proof.Proof.Launched
import proofs.«101329_j48601849921727_1_alg».proof.Proof.BlocksDense1
import proofs.«101329_j48601849921727_1_alg».proof.Proof.BlocksDense2
import proofs.«101329_j48601849921727_1_alg».proof.Proof.BlocksSoftmax
import Idealize.ShloMosaic.Lib.StableHlo.Run

set_option maxRecDepth 16384

noncomputable section

namespace Cert.KernelIdeal.Result

open Cert.KernelIdeal Cert.KernelIdeal.Gen Idealize.ShloMosaic Idealize.ShloMosaic.TcCoe Idealize.SL.Sem
open Idealize.ShloMosaic.StableHlo

/-- The weighted neighbourhood sum of a 128-wide layer: the destination row of the edge list, the source row with
    its negative entries wrapped by the number of nodes, the gathered source rows weighted edge by edge, added into
    the destination rows from zero. -/
def aggregate128 (x1 : (⟨S2x1600000, .i32⟩ : BufTy).Contents (Elt Ideal)) (x2 : FVec Ideal S1600000 .f32) (s : FVec Ideal S100000x128 .f32) : FVec Ideal S100000x128 .f32 :=
  Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (shapeCast _ (extractStridedSlice S1x1600000 ![0, 0] x1 slices_S2x1600000_S1x1600000_0_0) shapeCasts_S1x1600000_S1600000)) (mulf (broadcastInDim S1600000x128 ![0, 1] bcast_S1600000x1_S1600000x128_0_1 (broadcastInDim S1600000x1 ![0] bcast_S1600000_S1600000x1_0 x2)) (Host.gather gather_S100000x128_S1600000x1_S1600000x128_1_0_n_n_0_1_1128 s (broadcastInDim S1600000x1 ![0] bcast_S1600000_S1600000x1_0 (select (cmpi .slt (shapeCast _ (extractStridedSlice S1x1600000 ![1, 0] x1 slices_S2x1600000_S1x1600000_1_0) shapeCasts_S1x1600000_S1600000) (broadcastInDim S1600000 ![] bcast_S_S1600000 (constantI S_ 32 0#32))) (addi (shapeCast _ (extractStridedSlice S1x1600000 ![1, 0] x1 slices_S2x1600000_S1x1600000_1_0) shapeCasts_S1x1600000_S1600000) (broadcastInDim S1600000 ![] bcast_S_S1600000 (constantI S_ 32 100000#32))) (shapeCast _ (extractStridedSlice S1x1600000 ![1, 0] x1 slices_S2x1600000_S1x1600000_1_0) shapeCasts_S1x1600000_S1600000)))))

/-- The weighted neighbourhood sum of a 40-wide layer. -/
def aggregate40 (x1 : (⟨S2x1600000, .i32⟩ : BufTy).Contents (Elt Ideal)) (x2 : FVec Ideal S1600000 .f32) (s : FVec Ideal S100000x40 .f32) : FVec Ideal S100000x40 .f32 :=
  Host.scatterAdd scatter_S100000x40_S1600000x1_S1600000x40_1_0_0_1 (broadcastInDim S100000x40 ![] bcast_S_S100000x40 (constant S_ .f32 0x00000000#32)) (broadcastInDim S1600000x1 ![0] bcast_S1600000_S1600000x1_0 (shapeCast _ (extractStridedSlice S1x1600000 ![0, 0] x1 slices_S2x1600000_S1x1600000_0_0) shapeCasts_S1x1600000_S1600000)) (mulf (broadcastInDim S1600000x40 ![0, 1] bcast_S1600000x1_S1600000x40_0_1 (broadcastInDim S1600000x1 ![0] bcast_S1600000_S1600000x1_0 x2)) (Host.gather gather_S100000x40_S1600000x1_S1600000x40_1_0_n_n_0_1_140 s (broadcastInDim S1600000x1 ![0] bcast_S1600000_S1600000x1_0 (select (cmpi .slt (shapeCast _ (extractStridedSlice S1x1600000 ![1, 0] x1 slices_S2x1600000_S1x1600000_1_0) shapeCasts_S1x1600000_S1600000) (broadcastInDim S1600000 ![] bcast_S_S1600000 (constantI S_ 32 0#32))) (addi (shapeCast _ (extractStridedSlice S1x1600000 ![1, 0] x1 slices_S2x1600000_S1x1600000_1_0) shapeCasts_S1x1600000_S1600000) (broadcastInDim S1600000 ![] bcast_S_S1600000 (constantI S_ 32 100000#32))) (shapeCast _ (extractStridedSlice S1x1600000 ![1, 0] x1 slices_S2x1600000_S1x1600000_1_0) shapeCasts_S1x1600000_S1600000)))))

/-- The whole network as the kernel program computes it. -/
def network (x0 : FVec Ideal S100000x512 .f32) (x1 : (⟨S2x1600000, .i32⟩ : BufTy).Contents (Elt Ideal)) (x2 : FVec Ideal S1600000 .f32) (x3 : FVec Ideal S512x128 .f32)
    (x4 : FVec Ideal S128 .f32) (x5 : FVec Ideal S128x40 .f32) (x6 : FVec Ideal S40 .f32) : FVec Ideal S100000x40 .f32 :=
  Cert.Spec.logSoftmaxRows
    (aggregate40 x1 x2 (Cert.Spec.reluDense2 (aggregate128 x1 x2 (Cert.Spec.dense1 x0 x3)) (shapeCast S1x128 x4 shapeCasts_S128_S1x128) x5))
    (shapeCast S1x40 x6 shapeCasts_S40_S1x40)

/-! ## The host operations between the regions, from any contents -/

section Stretches
variable (Wv : Valuation τ sig (Elt Ideal))

set_option maxHeartbeats 2000000 in
theorem between01_aggregate :
    StableHlo.after hostOps1 Wv (Proc.devRef .tc main_v17)
      = aggregate128 (Wv (Proc.devRef .tc main_arg1)) (Wv (Proc.devRef .tc main_arg2)) (Wv (Proc.devRef .tc main_v0)) := by
  after_results_simp
  rfl

theorem between01_bias :
    StableHlo.after hostOps1 Wv (Proc.devRef .tc main_v18) = shapeCast S1x128 (Wv (Proc.devRef .tc main_arg4)) shapeCasts_S128_S1x128 := by
  after_results
  rfl

set_option maxHeartbeats 2000000 in
theorem between12_aggregate :
    StableHlo.after hostOps2 Wv (Proc.devRef .tc main_v36)
      = aggregate40 (Wv (Proc.devRef .tc main_arg1)) (Wv (Proc.devRef .tc main_arg2)) (Wv (Proc.devRef .tc main_v19)) := by
  after_results_simp
  rfl

theorem between12_bias :
    StableHlo.after hostOps2 Wv (Proc.devRef .tc main_v37) = shapeCast S1x40 (Wv (Proc.devRef .tc main_arg6)) shapeCasts_S40_S1x40 := by
  after_results
  rfl

/-- Neither stretch writes an argument array. -/
theorem between01_keeps (b : Ref sig .tc) (hb : b = main_arg1 ∨ b = main_arg2 ∨ b = main_arg5 ∨ b = main_arg6) :
    StableHlo.after hostOps1 Wv (Proc.devRef .tc b) = Wv (Proc.devRef .tc b) := by
  refine StableHlo.after_of_forall_not_mem (b := Proc.devRef .tc b) _ _ (List.forall_iff_forall_mem.mp ?_)
  simp only [hostOps1, List.Forall, StableHlo.nullary_writes, StableHlo.unary_writes, StableHlo.binary_writes, StableHlo.ternary_writes, StableHlo.reshape_writes, Finset.mem_singleton]
  rcases hb with rfl | rfl | rfl | rfl <;>
  · repeat' apply And.intro
    all_goals exact StableHlo.devRef_ne_of_ne (by decide)

theorem between12_keeps (b : Ref sig .tc) (hb : b = main_arg1 ∨ b = main_arg2 ∨ b = main_arg6) :
    StableHlo.after hostOps2 Wv (Proc.devRef .tc b) = Wv (Proc.devRef .tc b) := by
  refine StableHlo.after_of_forall_not_mem (b := Proc.devRef .tc b) _ _ (List.forall_iff_forall_mem.mp ?_)
  simp only [hostOps2, List.Forall, StableHlo.nullary_writes, StableHlo.unary_writes, StableHlo.binary_writes, StableHlo.ternary_writes, StableHlo.reshape_writes, Finset.mem_singleton]
  rcases hb with rfl | rfl | rfl <;>
  · repeat' apply And.intro
    all_goals exact StableHlo.devRef_ne_of_ne (by decide)

end Stretches

/-! ## The boundaries, read back to the launch memory -/

variable (m : (ℓ : Loc nD τ sig) → Buf (Elt Ideal) ℓ) (ρ : Dev nD → PrngReg)

/-- After the first region: its result array holds x · W1, the other arguments are as launched. -/
theorem after0_result (c : Dev nD) :
    W1 m ρ c (Proc.devRef .tc main_v0) = Cert.Spec.dense1 (m ((c : Thread nD τ).loc main_arg0)) (m ((c : Thread nD τ).loc main_arg3)) :=
  (W1_arr m ρ c 2).trans (Dense1.result (V0 m ρ) c)

theorem after0_keeps (c : Dev nD) (b : Ref sig .tc) (hb : ∀ w, Pipeline.arrRef spec0 w ≠ b) :
    W1 m ρ c (Proc.devRef .tc b) = m ((c : Thread nD τ).loc b) :=
  W1_of_ne m ρ c b hb

/-- Before the second region: the aggregate of x · W1, the first bias as a row, W2. -/
theorem before1_aggregate (c : Dev nD) :
    W2 m ρ c (Proc.devRef .tc main_v17)
      = aggregate128 (m ((c : Thread nD τ).loc main_arg1)) (m ((c : Thread nD τ).loc main_arg2))
          (Cert.Spec.dense1 (m ((c : Thread nD τ).loc main_arg0)) (m ((c : Thread nD τ).loc main_arg3))) := by
  refine (between01_aggregate (W1 m ρ c)).trans ?_
  rw [after0_result m ρ c, after0_keeps m ρ c main_arg1 (by decide), after0_keeps m ρ c main_arg2 (by decide)]

theorem before1_bias (c : Dev nD) :
    W2 m ρ c (Proc.devRef .tc main_v18) = shapeCast S1x128 (m ((c : Thread nD τ).loc main_arg4)) shapeCasts_S128_S1x128 := by
  refine (between01_bias (W1 m ρ c)).trans ?_
  rw [after0_keeps m ρ c main_arg4 (by decide)]

theorem before1_keeps (c : Dev nD) (b : Ref sig .tc) (hb : b = main_arg1 ∨ b = main_arg2 ∨ b = main_arg5 ∨ b = main_arg6) :
    W2 m ρ c (Proc.devRef .tc b) = m ((c : Thread nD τ).loc b) := by
  refine (between01_keeps (W1 m ρ c) b hb).trans ?_
  rcases hb with rfl | rfl | rfl | rfl <;> exact after0_keeps m ρ c _ (by decide)

/-- After the second region: its result array holds max (a + b, 0) · W2 of those. -/
theorem after1_result (c : Dev nD) :
    W3 m ρ c (Proc.devRef .tc main_v19)
      = Cert.Spec.reluDense2
          (aggregate128 (m ((c : Thread nD τ).loc main_arg1)) (m ((c : Thread nD τ).loc main_arg2))
            (Cert.Spec.dense1 (m ((c : Thread nD τ).loc main_arg0)) (m ((c : Thread nD τ).loc main_arg3))))
          (shapeCast S1x128 (m ((c : Thread nD τ).loc main_arg4)) shapeCasts_S128_S1x128)
          (m ((c : Thread nD τ).loc main_arg5)) := by
  refine (W3_arr m ρ c 3).trans ((Dense2.result (V2 m ρ) c).trans ?_)
  show Cert.Spec.reluDense2 (W2 m ρ c (Proc.devRef .tc main_v17)) (W2 m ρ c (Proc.devRef .tc main_v18)) (W2 m ρ c (Proc.devRef .tc main_arg5)) = _
  rw [before1_aggregate m ρ c, before1_bias m ρ c, before1_keeps m ρ c main_arg5 (Or.inr (Or.inr (Or.inl rfl)))]

theorem after1_keeps (c : Dev nD) (b : Ref sig .tc) (hb : b = main_arg1 ∨ b = main_arg2 ∨ b = main_arg6) :
    W3 m ρ c (Proc.devRef .tc b) = m ((c : Thread nD τ).loc b) := by
  have h2 : W2 m ρ c (Proc.devRef .tc b) = m ((c : Thread nD τ).loc b) :=
    before1_keeps m ρ c b (by rcases hb with rfl | rfl | rfl <;> simp)
  refine Eq.trans ?_ h2
  rcases hb with rfl | rfl | rfl <;> exact W3_of_ne m ρ c _ (by decide)

/-- The result array at the last boundary is the whole network of the launch memory. -/
theorem result_value (c : Dev nD) :
    W5 m ρ c (Proc.devRef .tc main_v38)
      = network (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (W5_arr m ρ c 2).trans ((Softmax.result (V4 m ρ) c).trans ?_)
  show Cert.Spec.logSoftmaxRows (W4 m ρ c (Proc.devRef .tc main_v36)) (W4 m ρ c (Proc.devRef .tc main_v37)) = _
  rw [show W4 m ρ c (Proc.devRef .tc main_v36) = _ from between12_aggregate (W3 m ρ c),
    show W4 m ρ c (Proc.devRef .tc main_v37) = _ from between12_bias (W3 m ρ c),
    after1_result m ρ c, after1_keeps m ρ c main_arg1 (Or.inl rfl), after1_keeps m ρ c main_arg2 (Or.inr (Or.inl rfl)),
    after1_keeps m ρ c main_arg6 (Or.inr (Or.inr rfl))]
  rfl

/-- The kernel program's run: the result array ends at the network of the launch memory, the arguments unchanged. -/
theorem run : θ_run defs (onTc (τ := τ) (main (F := Ideal))) ⟨m, fun _ => 0, ρ⟩ (fun r => ∀ c : Dev nD,
      r.2.mem ((c.tc : Thread nD τ).loc main_v38)
        = network (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_value m ρ c), (h c).2⟩) (Launched.run_result m ρ)

end Cert.KernelIdeal.Result

end
-- ==== Proof.RefLaws.lean ====
/-
  The reference's dense layers and its log-softmax as the same index-by-index functions.

  The host's dot_general of x and W1 is x · W1; its dot_general of the clamped, biased aggregate and W2 is
  max (a + b, 0) · W2, the bias broadcast from [128] through a [1, 128] row; and its log_softmax of z + b — the row
  maximum taken once more against −∞, which changes nothing, subtracted, exponentiated, summed, the logarithm of
  the sum subtracted — is the row-wise log-softmax.
-/
import proofs.«101329_j48601849921727_1_alg».proof.ReferenceIdeal
import proofs.«101329_j48601849921727_1_alg».proof.Proof.Spec
import proofs.«101329_j48601849921727_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Laws

open Cert.ReferenceIdeal Idealize.ShloMosaic Idealize.ShloMosaic.ValueIdx
open Facts₀

variable [Facts₀]

/-- The bias [128] as the one-row array the reference broadcasts from. -/
abbrev biasRow1 (b : FVec Ideal S128 .f32) : FVec Ideal S1x128 .f32 := broadcastInDim S1x128 ![1] bcast_S128_S1x128_1 b
/-- The bias [40] as the one-row array the reference broadcasts from. -/
abbrev biasRow2 (b : FVec Ideal S40 .f32) : FVec Ideal S1x40 .f32 := broadcastInDim S1x40 ![1] bcast_S40_S1x40_1 b

/-! ## The two products read at an index -/

/-- The left operand's row coordinate under the first product's index map is the output's row. -/
theorem lhs_dense1_0 (i : S100000x128.Idx) (q : dot_S100000x512_S512x128_S100000x128_1_0_0_1_n_n.contr.Idx) :
    (dot_S100000x512_S512x128_S100000x128_1_0_0_1_n_n.lhsIdx i q 0).val = (i 0).val := by
  unfold DotDims.lhsIdx
  rw [dif_neg (show ¬(0 : Fin S100000x512.rank) ∈ dot_S100000x512_S512x128_S100000x128_1_0_0_1_n_n.lhsBatch from List.not_mem_nil), dif_pos (show (0 : Fin S100000x512.rank) ∈ dot_S100000x512_S512x128_S100000x128_1_0_0_1_n_n.lhsNonContracting from List.mem_singleton.2 rfl)]
  rfl
/-- The left operand's column coordinate under the first product's index map is the contraction index. -/
theorem lhs_dense1_1 (i : S100000x128.Idx) (q : dot_S100000x512_S512x128_S100000x128_1_0_0_1_n_n.contr.Idx) :
    (dot_S100000x512_S512x128_S100000x128_1_0_0_1_n_n.lhsIdx i q 1).val = (q ⟨0, Nat.one_pos⟩).val :=
  dot_S100000x512_S512x128_S100000x128_1_0_0_1_n_n.lhsIdx_val_of_single rfl i q
/-- The right operand's row coordinate under the first product's index map is the contraction index. -/
theorem rhs_dense1_0 (i : S100000x128.Idx) (q : dot_S100000x512_S512x128_S100000x128_1_0_0_1_n_n.contr.Idx) :
    (dot_S100000x512_S512x128_S100000x128_1_0_0_1_n_n.rhsIdx i q 0).val = (q ⟨0, Nat.one_pos⟩).val :=
  dot_S100000x512_S512x128_S100000x128_1_0_0_1_n_n.rhsIdx_val_of_single rfl i q
/-- The right operand's column coordinate under the first product's index map is the output's column. -/
theorem rhs_dense1_1 (i : S100000x128.Idx) (q : dot_S100000x512_S512x128_S100000x128_1_0_0_1_n_n.contr.Idx) :
    (dot_S100000x512_S512x128_S100000x128_1_0_0_1_n_n.rhsIdx i q 1).val = (i 1).val := by
  unfold DotDims.rhsIdx
  rw [dif_neg (show ¬(1 : Fin S512x128.rank) ∈ dot_S100000x512_S512x128_S100000x128_1_0_0_1_n_n.rhsBatch from List.not_mem_nil), dif_pos (show (1 : Fin S512x128.rank) ∈ dot_S100000x512_S512x128_S100000x128_1_0_0_1_n_n.rhsNonContracting from List.mem_singleton.2 rfl)]
  rfl

/-- The first product at (r, c) is the sum over the 512 features of x (r, k) · w (k, c). -/
theorem dense1_dot_apply (x : FVec Ideal S100000x512 .f32) (w : FVec Ideal S512x128 .f32) (r : Fin 100000) (c : Fin 128) :
    Host.dotGeneral (F := Ideal) dot_S100000x512_S512x128_S100000x128_1_0_0_1_n_n none x w (ix2 r c) = ∑ k : Fin 512, x (ix2 r k) * w (ix2 k c) := by
  simp only [Host.dotGeneral]
  rw [Ideal.dotGeneral_apply, ← Equiv.sum_comp (ValueIdx.contrEquiv1 dot_S100000x512_S512x128_S100000x128_1_0_0_1_n_n 512 rfl rfl).symm]
  refine Finset.sum_congr rfl fun k _ => ?_
  have hk := ValueIdx.contrEquiv1_symm_val dot_S100000x512_S512x128_S100000x128_1_0_0_1_n_n 512 rfl rfl k
  have el : dot_S100000x512_S512x128_S100000x128_1_0_0_1_n_n.lhsIdx (ix2 r c) ((ValueIdx.contrEquiv1 dot_S100000x512_S512x128_S100000x128_1_0_0_1_n_n 512 rfl rfl).symm k) = ix2 r k := funext fun a => Fin.ext (by
    match a with
    | ⟨0, _⟩ => exact lhs_dense1_0 _ _
    | ⟨1, _⟩ => exact (lhs_dense1_1 _ _).trans hk)
  have er : dot_S100000x512_S512x128_S100000x128_1_0_0_1_n_n.rhsIdx (ix2 r c) ((ValueIdx.contrEquiv1 dot_S100000x512_S512x128_S100000x128_1_0_0_1_n_n 512 rfl rfl).symm k) = ix2 k c := funext fun a => Fin.ext (by
    match a with
    | ⟨0, _⟩ => exact (rhs_dense1_0 _ _).trans hk
    | ⟨1, _⟩ => exact rhs_dense1_1 _ _)
  rw [el, er]

/-- The left operand's row coordinate under the second product's index map is the output's row. -/
theorem lhs_dense2_0 (i : S100000x40.Idx) (q : dot_S100000x128_S128x40_S100000x40_1_0_0_1_n_n.contr.Idx) :
    (dot_S100000x128_S128x40_S100000x40_1_0_0_1_n_n.lhsIdx i q 0).val = (i 0).val := by
  unfold DotDims.lhsIdx
  rw [dif_neg (show ¬(0 : Fin S100000x128.rank) ∈ dot_S100000x128_S128x40_S100000x40_1_0_0_1_n_n.lhsBatch from List.not_mem_nil), dif_pos (show (0 : Fin S100000x128.rank) ∈ dot_S100000x128_S128x40_S100000x40_1_0_0_1_n_n.lhsNonContracting from List.mem_singleton.2 rfl)]
  rfl
/-- The left operand's column coordinate under the second product's index map is the contraction index. -/
theorem lhs_dense2_1 (i : S100000x40.Idx) (q : dot_S100000x128_S128x40_S100000x40_1_0_0_1_n_n.contr.Idx) :
    (dot_S100000x128_S128x40_S100000x40_1_0_0_1_n_n.lhsIdx i q 1).val = (q ⟨0, Nat.one_pos⟩).val :=
  dot_S100000x128_S128x40_S100000x40_1_0_0_1_n_n.lhsIdx_val_of_single rfl i q
/-- The right operand's row coordinate under the second product's index map is the contraction index. -/
theorem rhs_dense2_0 (i : S100000x40.Idx) (q : dot_S100000x128_S128x40_S100000x40_1_0_0_1_n_n.contr.Idx) :
    (dot_S100000x128_S128x40_S100000x40_1_0_0_1_n_n.rhsIdx i q 0).val = (q ⟨0, Nat.one_pos⟩).val :=
  dot_S100000x128_S128x40_S100000x40_1_0_0_1_n_n.rhsIdx_val_of_single rfl i q
/-- The right operand's column coordinate under the second product's index map is the output's column. -/
theorem rhs_dense2_1 (i : S100000x40.Idx) (q : dot_S100000x128_S128x40_S100000x40_1_0_0_1_n_n.contr.Idx) :
    (dot_S100000x128_S128x40_S100000x40_1_0_0_1_n_n.rhsIdx i q 1).val = (i 1).val := by
  unfold DotDims.rhsIdx
  rw [dif_neg (show ¬(1 : Fin S128x40.rank) ∈ dot_S100000x128_S128x40_S100000x40_1_0_0_1_n_n.rhsBatch from List.not_mem_nil), dif_pos (show (1 : Fin S128x40.rank) ∈ dot_S100000x128_S128x40_S100000x40_1_0_0_1_n_n.rhsNonContracting from List.mem_singleton.2 rfl)]
  rfl

/-- The second product at (r, c) is the sum over the 128 hidden units of y (r, k) · w (k, c). -/
theorem dense2_dot_apply (y : FVec Ideal S100000x128 .f32) (w : FVec Ideal S128x40 .f32) (r : Fin 100000) (c : Fin 40) :
    Host.dotGeneral (F := Ideal) dot_S100000x128_S128x40_S100000x40_1_0_0_1_n_n none y w (ix2 r c) = ∑ k : Fin 128, y (ix2 r k) * w (ix2 k c) := by
  simp only [Host.dotGeneral]
  rw [Ideal.dotGeneral_apply, ← Equiv.sum_comp (ValueIdx.contrEquiv1 dot_S100000x128_S128x40_S100000x40_1_0_0_1_n_n 128 rfl rfl).symm]
  refine Finset.sum_congr rfl fun k _ => ?_
  have hk := ValueIdx.contrEquiv1_symm_val dot_S100000x128_S128x40_S100000x40_1_0_0_1_n_n 128 rfl rfl k
  have el : dot_S100000x128_S128x40_S100000x40_1_0_0_1_n_n.lhsIdx (ix2 r c) ((ValueIdx.contrEquiv1 dot_S100000x128_S128x40_S100000x40_1_0_0_1_n_n 128 rfl rfl).symm k) = ix2 r k := funext fun a => Fin.ext (by
    match a with
    | ⟨0, _⟩ => exact lhs_dense2_0 _ _
    | ⟨1, _⟩ => exact (lhs_dense2_1 _ _).trans hk)
  have er : dot_S100000x128_S128x40_S100000x40_1_0_0_1_n_n.rhsIdx (ix2 r c) ((ValueIdx.contrEquiv1 dot_S100000x128_S128x40_S100000x40_1_0_0_1_n_n 128 rfl rfl).symm k) = ix2 k c := funext fun a => Fin.ext (by
    match a with
    | ⟨0, _⟩ => exact (rhs_dense2_0 _ _).trans hk
    | ⟨1, _⟩ => exact rhs_dense2_1 _ _)
  rw [el, er]

/-! ## The broadcasts read at an index -/

/-- A one-row [1, 128] array broadcast down the rows of [100000, 128], at (r, k), is its one row at k. -/
theorem bias1_rows_apply {α : Type} (v : S1x128.Idx → α) (r : Fin 100000) (k : Fin 128) :
    broadcastInDim S100000x128 ![0, 1] bcast_S1x128_S100000x128_0_1 v (ix2 r k) = v (ix2 (0 : Fin 1) k) :=
  broadcastInDim_apply _ bcast_S1x128_S100000x128_0_1 v (ix2 r k) (ix2 (0 : Fin 1) k) (fun a => match a with
    | ⟨0, _⟩ => by show 0 = if (1 : Nat) = 1 then 0 else r.val; rw [if_pos rfl]
    | ⟨1, _⟩ => by show k.val = if (128 : Nat) = 1 then 0 else k.val; rw [if_neg (by decide)])

/-- A scalar broadcast to [100000, 128] is the scalar everywhere. -/
theorem scalar_128_apply {α : Type} (v : S_.Idx → α) (j : S100000x128.Idx) :
    broadcastInDim S100000x128 ![] bcast_S_S100000x128 v j = v ix0 :=
  broadcastInDim_apply _ bcast_S_S100000x128 v j ix0 (fun a => a.elim0)

/-- A one-row [1, 40] array broadcast down the rows of [100000, 40], at (r, k), is its one row at k. -/
theorem bias2_rows_apply {α : Type} (v : S1x40.Idx → α) (r : Fin 100000) (k : Fin 40) :
    broadcastInDim S100000x40 ![0, 1] bcast_S1x40_S100000x40_0_1 v (ix2 r k) = v (ix2 (0 : Fin 1) k) :=
  broadcastInDim_apply _ bcast_S1x40_S100000x40_0_1 v (ix2 r k) (ix2 (0 : Fin 1) k) (fun a => match a with
    | ⟨0, _⟩ => by show 0 = if (1 : Nat) = 1 then 0 else r.val; rw [if_pos rfl]
    | ⟨1, _⟩ => by show k.val = if (40 : Nat) = 1 then 0 else k.val; rw [if_neg (by decide)])

/-- A scalar broadcast to [100000] is the scalar everywhere. -/
theorem scalar_rows_apply {α : Type} (v : S_.Idx → α) (j : S100000.Idx) :
    broadcastInDim S100000 ![] bcast_S_S100000 v j = v ix0 :=
  broadcastInDim_apply _ bcast_S_S100000 v j ix0 (fun a => a.elim0)

/-- A column [100000, 1] broadcast across the columns of [100000, 40], at (r, c), is the column at r. -/
theorem column_40_apply {α : Type} (v : S100000x1.Idx → α) (r : Fin 100000) (c : Fin 40) :
    broadcastInDim S100000x40 ![0, 1] bcast_S100000x1_S100000x40_0_1 v (ix2 r c) = v (ix2 r (0 : Fin 1)) :=
  broadcastInDim_apply _ bcast_S100000x1_S100000x40_0_1 v (ix2 r c) (ix2 r (0 : Fin 1)) (fun a => match a with
    | ⟨0, _⟩ => by show r.val = if (100000 : Nat) = 1 then 0 else r.val; rw [if_neg (by decide)]
    | ⟨1, _⟩ => by show 0 = if (1 : Nat) = 1 then 0 else c.val; rw [if_pos rfl])

/-- A vector [100000] as a column [100000, 1], at (r, 0), is the vector at r. -/
theorem vector_column_apply {α : Type} (v : S100000.Idx → α) (r : Fin 100000) :
    broadcastInDim S100000x1 ![0] bcast_S100000_S100000x1_0 v (ix2 r (0 : Fin 1)) = v (ix1 r) :=
  broadcastInDim_apply _ bcast_S100000_S100000x1_0 v (ix2 r (0 : Fin 1)) (ix1 r) (fun a => match a with
    | ⟨0, _⟩ => by show r.val = if (100000 : Nat) = 1 then 0 else r.val; rw [if_neg (by decide)])

/-- The reference's first dot_general is x · W1. -/
theorem ref_dense1 (x : FVec Ideal S100000x512 .f32) (w : FVec Ideal S512x128 .f32) :
    Host.dotGeneral (F := Ideal) dot_S100000x512_S512x128_S100000x128_1_0_0_1_n_n none x w = Cert.Spec.dense1 x w := by
  funext i
  obtain ⟨r, c, rfl⟩ : ∃ (r : Fin 100000) (c : Fin 128), i = ix2 r c := ⟨i 0, i 1, eq_ix2 i⟩
  rw [Cert.Spec.dense1_ix2]
  exact dense1_dot_apply x w r c

/-- The reference's second dot_general, of the clamped, biased aggregate, is max (a + b, 0) · W2. -/
theorem ref_dense2 (a : FVec Ideal S100000x128 .f32) (b : FVec Ideal S128 .f32) (w : FVec Ideal S128x40 .f32) :
    Host.dotGeneral (F := Ideal) dot_S100000x128_S128x40_S100000x40_1_0_0_1_n_n none
        (maximumf (addf a (broadcastInDim S100000x128 ![0, 1] bcast_S1x128_S100000x128_0_1 (biasRow1 b)))
          (broadcastInDim S100000x128 ![] bcast_S_S100000x128 (constant S_ .f32 0x00000000#32))) w
      = Cert.Spec.reluDense2 a (biasRow1 b) w := by
  funext i
  obtain ⟨r, c, rfl⟩ : ∃ (r : Fin 100000) (c : Fin 40), i = ix2 r c := ⟨i 0, i 1, eq_ix2 i⟩
  rw [Cert.Spec.reluDense2_ix2]
  refine (dense2_dot_apply _ w r c).trans ?_
  unfold Cert.Spec.reluDense2At
  refine Finset.sum_congr rfl fun k _ => ?_
  refine congrArg (· * w (ix2 k c)) ?_
  show max (a (ix2 r k) + broadcastInDim S100000x128 ![0, 1] bcast_S1x128_S100000x128_0_1 (biasRow1 b) (ix2 r k))
      (broadcastInDim S100000x128 ![] bcast_S_S100000x128 (constant (F := Ideal) S_ .f32 0x00000000#32) (ix2 r k)) = _
  rw [bias1_rows_apply, scalar_128_apply]
  rfl

/-! ## The log-softmax's reductions read at a row -/

/-- The host's exponential at an index is the exponential of the entry. -/
theorem host_exp_apply {s : Shape} (x : FVec Ideal s .f32) (i : s.Idx) : Host.exp x i = Ideal.exp (x i) := rfl
/-- The host's logarithm at an index is the logarithm of the entry. -/
theorem host_log_apply {s : Shape} (x : FVec Ideal s .f32) (i : s.Idx) : Host.log x i = Ideal.log (x i) := rfl

/-- The host's maximum along a row, started from the pattern of −∞, is the row's maximum. -/
theorem reduce_max_apply (y : FVec Ideal S100000x40 .f32) (r : Fin 100000) :
    Host.reduce FloatOps.maximumf y (constant (F := Ideal) S_ .f32 0xFF800000#32) reducesTo_S100000x40_S100000_d1 h_S_ (ix1 r)
      = Cert.Spec.rowMax (fun k => y (ix2 r k)) := by
  have h : S100000x40.Reduces [1] S100000 := by decide
  rw [Host.reduce_eq_fold_single FloatOps.maximumf y _ reducesTo_S100000x40_S100000_d1 h h_S_ (ix1 r)]
  have e : (y ∘ h.lift (ix1 r)) = fun k : Fin 40 => y (ix2 r k) :=
    funext fun k => congrArg y (funext fun a => Fin.ext (by match a with | ⟨0, _⟩ => rfl | ⟨1, _⟩ => rfl))
  show (Finset.univ : Finset (Fin 40)).fold max (Ideal.ofBits .f32 0xFF800000#32) (y ∘ h.lift (ix1 r))
    = (Finset.univ : Finset (Fin 40)).fold max (Ideal.ofBits .f32 0xFF800000#32) (fun k : Fin 40 => y (ix2 r k))
  rw [e]
  rfl

/-- The host's sum along a row, started from the zero pattern, is the row's sum. -/
theorem reduce_add_apply (y : FVec Ideal S100000x40 .f32) (r : Fin 100000) :
    Host.reduceAdd y (constant (F := Ideal) S_ .f32 0x00000000#32) reducesTo_S100000x40_S100000_d1 h_S_ (ix1 r)
      = ∑ k : Fin 40, y (ix2 r k) := by
  simp only [Host.reduceAdd, Ideal.hostReduceAdd_def]
  rw [Ideal.hostReduceAdd_single reducesTo_S100000x40_S100000_d1 (by decide)]
  show Ideal.ofBits .f32 0x00000000#32 + _ = _
  rw [Ideal.ofBits_zero_f32, zero_add]
  refine Finset.sum_congr rfl fun k _ => ?_
  exact congrArg y (funext fun a => Fin.ext (by match a with | ⟨0, _⟩ => rfl | ⟨1, _⟩ => rfl))

/-- The logits the reference's log_softmax is applied to. -/
abbrev refLogits (z : FVec Ideal S100000x40 .f32) (b : FVec Ideal S40 .f32) : FVec Ideal S100000x40 .f32 :=
  addf z (broadcastInDim S100000x40 ![0, 1] bcast_S1x40_S100000x40_0_1 (biasRow2 b))

/-- The logits minus their row maximum, as the reference computes it. -/
abbrev refShifted (y : FVec Ideal S100000x40 .f32) : FVec Ideal S100000x40 .f32 :=
  subf y (broadcastInDim S100000x40 ![0, 1] bcast_S100000x1_S100000x40_0_1
    (broadcastInDim S100000x1 ![0] bcast_S100000_S100000x1_0
      (maximumf (broadcastInDim S100000 ![] bcast_S_S100000 (constant S_ .f32 0xFF800000#32))
        (Host.reduce FloatOps.maximumf y (constant S_ .f32 0xFF800000#32) reducesTo_S100000x40_S100000_d1 h_S_))))

/-- The shifted array at (r, c) is the entry minus the row's maximum: the maximum of the −∞ pattern with the row's
    maximum is the row's maximum, the maximum having started from that pattern. -/
theorem refShifted_apply (y : FVec Ideal S100000x40 .f32) (r : Fin 100000) (c : Fin 40) :
    refShifted y (ix2 r c) = y (ix2 r c) - Cert.Spec.rowMax (fun k => y (ix2 r k)) := by
  refine (subf_apply _ _ _).trans ?_
  refine congrArg (y (ix2 r c) - ·) ?_
  refine (column_40_apply _ r c).trans ?_
  refine (vector_column_apply _ r).trans ?_
  refine (maximumf_apply _ _ _).trans ?_
  rw [scalar_rows_apply, reduce_max_apply]
  exact max_eq_right ((Finset.le_fold_max _).2 (Or.inl le_rfl))

/-- A row of the reference's logits is the specification's row of z + b. -/
theorem refLogits_row (z : FVec Ideal S100000x40 .f32) (b : FVec Ideal S40 .f32) (r : Fin 100000) :
    (fun k : Fin 40 => refLogits z b (ix2 r k)) = Cert.Spec.logits z (biasRow2 b) r := funext fun k => by
  refine (addf_apply _ _ _).trans ?_
  exact congrArg (z (ix2 r k) + ·) (bias2_rows_apply (biasRow2 b) r k)

/-- The shifted logits at (r, k) are the specification's logit minus the specification's row maximum. -/
theorem refShifted_logits_apply (z : FVec Ideal S100000x40 .f32) (b : FVec Ideal S40 .f32) (r : Fin 100000) (k : Fin 40) :
    refShifted (refLogits z b) (ix2 r k)
      = Cert.Spec.logits z (biasRow2 b) r k - Cert.Spec.rowMax (Cert.Spec.logits z (biasRow2 b) r) := by
  rw [refShifted_apply, refLogits_row]
  exact congrArg (· - Cert.Spec.rowMax (Cert.Spec.logits z (biasRow2 b) r)) (congrFun (refLogits_row z b r) k)

/-- The reference's log_softmax of z + b is the row-wise log-softmax. -/
theorem ref_logSoftmax (z : FVec Ideal S100000x40 .f32) (b : FVec Ideal S40 .f32) :
    subf (refShifted (refLogits z b))
        (broadcastInDim S100000x40 ![0, 1] bcast_S100000x1_S100000x40_0_1
          (Host.log (broadcastInDim S100000x1 ![0] bcast_S100000_S100000x1_0
            (Host.reduceAdd (Host.exp (refShifted (refLogits z b))) (constant S_ .f32 0x00000000#32)
              reducesTo_S100000x40_S100000_d1 h_S_))))
      = Cert.Spec.logSoftmaxRows z (biasRow2 b) := by
  funext i
  obtain ⟨r, c, rfl⟩ : ∃ (r : Fin 100000) (c : Fin 40), i = ix2 r c := ⟨i 0, i 1, eq_ix2 i⟩
  rw [Cert.Spec.logSoftmaxRows_ix2]
  refine (subf_apply _ _ _).trans ?_
  unfold Cert.Spec.logSoftmaxAt
  refine congrArg₂ (· - ·) (refShifted_logits_apply z b r c) ?_
  refine (column_40_apply _ r c).trans ?_
  refine (host_log_apply _ _).trans ?_
  refine congrArg Ideal.log ?_
  refine (vector_column_apply _ r).trans ?_
  refine (reduce_add_apply _ r).trans ?_
  refine Finset.sum_congr rfl fun k _ => ?_
  refine (host_exp_apply _ _).trans ?_
  exact congrArg Ideal.exp (refShifted_logits_apply z b r k)

end Cert.ReferenceIdeal.Laws

end
-- ==== Proof.RefValue.lean ====
/-
  The reference's result as the same composition of layers.

  Both aggregations are the same chain of host operations: the destination row of the edge list, the source row
  with its negative entries wrapped by the number of nodes, the gathered rows of the layer weighted edge by edge,
  summed into the destination nodes from zero. With the chain kept as one function of the edge list, the edge
  weights and the layer, the reference's result is the row-wise log-softmax of the aggregate of
  max (aggregate (x · W1) + b1, 0) · W2, plus b2.
-/
import proofs.«101329_j48601849921727_1_alg».proof.Proof.RefLaws

set_option maxRecDepth 65536

noncomputable section

namespace Cert.ReferenceIdeal.Laws

open Cert.ReferenceIdeal Idealize.ShloMosaic Idealize.ShloMosaic.ValueIdx
open Facts₀

variable [Facts₀]

/-- The weighted neighbourhood sum of a 128-wide layer: gather the source rows, weight them, add into the destination rows. -/
def aggregate128 (x1 : (⟨S2x1600000, .i32⟩ : BufTy).Contents (Elt Ideal)) (x2 : FVec Ideal S1600000 .f32) (s : FVec Ideal S100000x128 .f32) : FVec Ideal S100000x128 .f32 :=
  Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (shapeCast _ (extractStridedSlice S1x1600000 ![0, 0] x1 slices_S2x1600000_S1x1600000_0_0) shapeCasts_S1x1600000_S1600000)) (mulf (broadcastInDim S1600000x128 ![0, 1] bcast_S1600000x1_S1600000x128_0_1 (broadcastInDim S1600000x1 ![0] bcast_S1600000_S1600000x1_0 x2)) (Host.gather gather_S100000x128_S1600000x1_S1600000x128_1_0_n_n_0_1_1128 s (broadcastInDim S1600000x1 ![0] bcast_S1600000_S1600000x1_0 (select (cmpi .slt (shapeCast _ (extractStridedSlice S1x1600000 ![1, 0] x1 slices_S2x1600000_S1x1600000_1_0) shapeCasts_S1x1600000_S1600000) (broadcastInDim S1600000 ![] bcast_S_S1600000 (constantI S_ 32 0#32))) (addi (shapeCast _ (extractStridedSlice S1x1600000 ![1, 0] x1 slices_S2x1600000_S1x1600000_1_0) shapeCasts_S1x1600000_S1600000) (broadcastInDim S1600000 ![] bcast_S_S1600000 (constantI S_ 32 100000#32))) (shapeCast _ (extractStridedSlice S1x1600000 ![1, 0] x1 slices_S2x1600000_S1x1600000_1_0) shapeCasts_S1x1600000_S1600000)))))

/-- The weighted neighbourhood sum of a 40-wide layer. -/
def aggregate40 (x1 : (⟨S2x1600000, .i32⟩ : BufTy).Contents (Elt Ideal)) (x2 : FVec Ideal S1600000 .f32) (s : FVec Ideal S100000x40 .f32) : FVec Ideal S100000x40 .f32 :=
  Host.scatterAdd scatter_S100000x40_S1600000x1_S1600000x40_1_0_0_1 (broadcastInDim S100000x40 ![] bcast_S_S100000x40 (constant S_ .f32 0x00000000#32)) (broadcastInDim S1600000x1 ![0] bcast_S1600000_S1600000x1_0 (shapeCast _ (extractStridedSlice S1x1600000 ![0, 0] x1 slices_S2x1600000_S1x1600000_0_0) shapeCasts_S1x1600000_S1600000)) (mulf (broadcastInDim S1600000x40 ![0, 1] bcast_S1600000x1_S1600000x40_0_1 (broadcastInDim S1600000x1 ![0] bcast_S1600000_S1600000x1_0 x2)) (Host.gather gather_S100000x40_S1600000x1_S1600000x40_1_0_n_n_0_1_140 s (broadcastInDim S1600000x1 ![0] bcast_S1600000_S1600000x1_0 (select (cmpi .slt (shapeCast _ (extractStridedSlice S1x1600000 ![1, 0] x1 slices_S2x1600000_S1x1600000_1_0) shapeCasts_S1x1600000_S1600000) (broadcastInDim S1600000 ![] bcast_S_S1600000 (constantI S_ 32 0#32))) (addi (shapeCast _ (extractStridedSlice S1x1600000 ![1, 0] x1 slices_S2x1600000_S1x1600000_1_0) shapeCasts_S1x1600000_S1600000) (broadcastInDim S1600000 ![] bcast_S_S1600000 (constantI S_ 32 100000#32))) (shapeCast _ (extractStridedSlice S1x1600000 ![1, 0] x1 slices_S2x1600000_S1x1600000_1_0) shapeCasts_S1x1600000_S1600000)))))

/-- The reference's composed result term, over any argument arrays, is the composition of the layers. -/
theorem result_eq (x0 : FVec Ideal S100000x512 .f32) (x1 : (⟨S2x1600000, .i32⟩ : BufTy).Contents (Elt Ideal)) (x2 : FVec Ideal S1600000 .f32) (x3 : FVec Ideal S512x128 .f32) (x4 : FVec Ideal S128 .f32) (x5 : FVec Ideal S128x40 .f32) (x6 : FVec Ideal S40 .f32) :
    (subf (subf (addf (Host.scatterAdd scatter_S100000x40_S1600000x1_S1600000x40_1_0_0_1 (broadcastInDim S100000x40 ![] bcast_S_S100000x40 (constant S_ .f32 0x00000000#32)) (broadcastInDim S1600000x1 ![0] bcast_S1600000_S1600000x1_0 (shapeCast _ (extractStridedSlice S1x1600000 ![0, 0] x1 slices_S2x1600000_S1x1600000_0_0) shapeCasts_S1x1600000_S1600000)) (mulf (broadcastInDim S1600000x40 ![0, 1] bcast_S1600000x1_S1600000x40_0_1 (broadcastInDim S1600000x1 ![0] bcast_S1600000_S1600000x1_0 x2)) (Host.gather gather_S100000x40_S1600000x1_S1600000x40_1_0_n_n_0_1_140 (Host.dotGeneral dot_S100000x128_S128x40_S100000x40_1_0_0_1_n_n none (maximumf (addf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (shapeCast _ (extractStridedSlice S1x1600000 ![0, 0] x1 slices_S2x1600000_S1x1600000_0_0) shapeCasts_S1x1600000_S1600000)) (mulf (broadcastInDim S1600000x128 ![0, 1] bcast_S1600000x1_S1600000x128_0_1 (broadcastInDim S1600000x1 ![0] bcast_S1600000_S1600000x1_0 x2)) (Host.gather gather_S100000x128_S1600000x1_S1600000x128_1_0_n_n_0_1_1128 (Host.dotGeneral dot_S100000x512_S512x128_S100000x128_1_0_0_1_n_n none x0 x3) (broadcastInDim S1600000x1 ![0] bcast_S1600000_S1600000x1_0 (select (cmpi .slt (shapeCast _ (extractStridedSlice S1x1600000 ![1, 0] x1 slices_S2x1600000_S1x1600000_1_0) shapeCasts_S1x1600000_S1600000) (broadcastInDim S1600000 ![] bcast_S_S1600000 (constantI S_ 32 0#32))) (addi (shapeCast _ (extractStridedSlice S1x1600000 ![1, 0] x1 slices_S2x1600000_S1x1600000_1_0) shapeCasts_S1x1600000_S1600000) (broadcastInDim S1600000 ![] bcast_S_S1600000 (constantI S_ 32 100000#32))) (shapeCast _ (extractStridedSlice S1x1600000 ![1, 0] x1 slices_S2x1600000_S1x1600000_1_0) shapeCasts_S1x1600000_S1600000)))))) (broadcastInDim S100000x128 ![0, 1] bcast_S1x128_S100000x128_0_1 (broadcastInDim S1x128 ![1] bcast_S128_S1x128_1 x4))) (broadcastInDim S100000x128 ![] bcast_S_S100000x128 (constant S_ .f32 0x00000000#32))) x5) (broadcastInDim S1600000x1 ![0] bcast_S1600000_S1600000x1_0 (select (cmpi .slt (shapeCast _ (extractStridedSlice S1x1600000 ![1, 0] x1 slices_S2x1600000_S1x1600000_1_0) shapeCasts_S1x1600000_S1600000) (broadcastInDim S1600000 ![] bcast_S_S1600000 (constantI S_ 32 0#32))) (addi (shapeCast _ (extractStridedSlice S1x1600000 ![1, 0] x1 slices_S2x1600000_S1x1600000_1_0) shapeCasts_S1x1600000_S1600000) (broadcastInDim S1600000 ![] bcast_S_S1600000 (constantI S_ 32 100000#32))) (shapeCast _ (extractStridedSlice S1x1600000 ![1, 0] x1 slices_S2x1600000_S1x1600000_1_0) shapeCasts_S1x1600000_S1600000)))))) (broadcastInDim S100000x40 ![0, 1] bcast_S1x40_S100000x40_0_1 (broadcastInDim S1x40 ![1] bcast_S40_S1x40_1 x6))) (broadcastInDim S100000x40 ![0, 1] bcast_S100000x1_S100000x40_0_1 (broadcastInDim S100000x1 ![0] bcast_S100000_S100000x1_0 (maximumf (broadcastInDim S100000 ![] bcast_S_S100000 (constant S_ .f32 0xFF800000#32)) (Host.reduce FloatOps.maximumf (addf (Host.scatterAdd scatter_S100000x40_S1600000x1_S1600000x40_1_0_0_1 (broadcastInDim S100000x40 ![] bcast_S_S100000x40 (constant S_ .f32 0x00000000#32)) (broadcastInDim S1600000x1 ![0] bcast_S1600000_S1600000x1_0 (shapeCast _ (extractStridedSlice S1x1600000 ![0, 0] x1 slices_S2x1600000_S1x1600000_0_0) shapeCasts_S1x1600000_S1600000)) (mulf (broadcastInDim S1600000x40 ![0, 1] bcast_S1600000x1_S1600000x40_0_1 (broadcastInDim S1600000x1 ![0] bcast_S1600000_S1600000x1_0 x2)) (Host.gather gather_S100000x40_S1600000x1_S1600000x40_1_0_n_n_0_1_140 (Host.dotGeneral dot_S100000x128_S128x40_S100000x40_1_0_0_1_n_n none (maximumf (addf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (shapeCast _ (extractStridedSlice S1x1600000 ![0, 0] x1 slices_S2x1600000_S1x1600000_0_0) shapeCasts_S1x1600000_S1600000)) (mulf (broadcastInDim S1600000x128 ![0, 1] bcast_S1600000x1_S1600000x128_0_1 (broadcastInDim S1600000x1 ![0] bcast_S1600000_S1600000x1_0 x2)) (Host.gather gather_S100000x128_S1600000x1_S1600000x128_1_0_n_n_0_1_1128 (Host.dotGeneral dot_S100000x512_S512x128_S100000x128_1_0_0_1_n_n none x0 x3) (broadcastInDim S1600000x1 ![0] bcast_S1600000_S1600000x1_0 (select (cmpi .slt (shapeCast _ (extractStridedSlice S1x1600000 ![1, 0] x1 slices_S2x1600000_S1x1600000_1_0) shapeCasts_S1x1600000_S1600000) (broadcastInDim S1600000 ![] bcast_S_S1600000 (constantI S_ 32 0#32))) (addi (shapeCast _ (extractStridedSlice S1x1600000 ![1, 0] x1 slices_S2x1600000_S1x1600000_1_0) shapeCasts_S1x1600000_S1600000) (broadcastInDim S1600000 ![] bcast_S_S1600000 (constantI S_ 32 100000#32))) (shapeCast _ (extractStridedSlice S1x1600000 ![1, 0] x1 slices_S2x1600000_S1x1600000_1_0) shapeCasts_S1x1600000_S1600000)))))) (broadcastInDim S100000x128 ![0, 1] bcast_S1x128_S100000x128_0_1 (broadcastInDim S1x128 ![1] bcast_S128_S1x128_1 x4))) (broadcastInDim S100000x128 ![] bcast_S_S100000x128 (constant S_ .f32 0x00000000#32))) x5) (broadcastInDim S1600000x1 ![0] bcast_S1600000_S1600000x1_0 (select (cmpi .slt (shapeCast _ (extractStridedSlice S1x1600000 ![1, 0] x1 slices_S2x1600000_S1x1600000_1_0) shapeCasts_S1x1600000_S1600000) (broadcastInDim S1600000 ![] bcast_S_S1600000 (constantI S_ 32 0#32))) (addi (shapeCast _ (extractStridedSlice S1x1600000 ![1, 0] x1 slices_S2x1600000_S1x1600000_1_0) shapeCasts_S1x1600000_S1600000) (broadcastInDim S1600000 ![] bcast_S_S1600000 (constantI S_ 32 100000#32))) (shapeCast _ (extractStridedSlice S1x1600000 ![1, 0] x1 slices_S2x1600000_S1x1600000_1_0) shapeCasts_S1x1600000_S1600000)))))) (broadcastInDim S100000x40 ![0, 1] bcast_S1x40_S100000x40_0_1 (broadcastInDim S1x40 ![1] bcast_S40_S1x40_1 x6))) (constant S_ .f32 0xFF800000#32) reducesTo_S100000x40_S100000_d1 h_S_))))) (broadcastInDim S100000x40 ![0, 1] bcast_S100000x1_S100000x40_0_1 (Host.log (broadcastInDim S100000x1 ![0] bcast_S100000_S100000x1_0 (Host.reduceAdd (Host.exp (subf (addf (Host.scatterAdd scatter_S100000x40_S1600000x1_S1600000x40_1_0_0_1 (broadcastInDim S100000x40 ![] bcast_S_S100000x40 (constant S_ .f32 0x00000000#32)) (broadcastInDim S1600000x1 ![0] bcast_S1600000_S1600000x1_0 (shapeCast _ (extractStridedSlice S1x1600000 ![0, 0] x1 slices_S2x1600000_S1x1600000_0_0) shapeCasts_S1x1600000_S1600000)) (mulf (broadcastInDim S1600000x40 ![0, 1] bcast_S1600000x1_S1600000x40_0_1 (broadcastInDim S1600000x1 ![0] bcast_S1600000_S1600000x1_0 x2)) (Host.gather gather_S100000x40_S1600000x1_S1600000x40_1_0_n_n_0_1_140 (Host.dotGeneral dot_S100000x128_S128x40_S100000x40_1_0_0_1_n_n none (maximumf (addf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (shapeCast _ (extractStridedSlice S1x1600000 ![0, 0] x1 slices_S2x1600000_S1x1600000_0_0) shapeCasts_S1x1600000_S1600000)) (mulf (broadcastInDim S1600000x128 ![0, 1] bcast_S1600000x1_S1600000x128_0_1 (broadcastInDim S1600000x1 ![0] bcast_S1600000_S1600000x1_0 x2)) (Host.gather gather_S100000x128_S1600000x1_S1600000x128_1_0_n_n_0_1_1128 (Host.dotGeneral dot_S100000x512_S512x128_S100000x128_1_0_0_1_n_n none x0 x3) (broadcastInDim S1600000x1 ![0] bcast_S1600000_S1600000x1_0 (select (cmpi .slt (shapeCast _ (extractStridedSlice S1x1600000 ![1, 0] x1 slices_S2x1600000_S1x1600000_1_0) shapeCasts_S1x1600000_S1600000) (broadcastInDim S1600000 ![] bcast_S_S1600000 (constantI S_ 32 0#32))) (addi (shapeCast _ (extractStridedSlice S1x1600000 ![1, 0] x1 slices_S2x1600000_S1x1600000_1_0) shapeCasts_S1x1600000_S1600000) (broadcastInDim S1600000 ![] bcast_S_S1600000 (constantI S_ 32 100000#32))) (shapeCast _ (extractStridedSlice S1x1600000 ![1, 0] x1 slices_S2x1600000_S1x1600000_1_0) shapeCasts_S1x1600000_S1600000)))))) (broadcastInDim S100000x128 ![0, 1] bcast_S1x128_S100000x128_0_1 (broadcastInDim S1x128 ![1] bcast_S128_S1x128_1 x4))) (broadcastInDim S100000x128 ![] bcast_S_S100000x128 (constant S_ .f32 0x00000000#32))) x5) (broadcastInDim S1600000x1 ![0] bcast_S1600000_S1600000x1_0 (select (cmpi .slt (shapeCast _ (extractStridedSlice S1x1600000 ![1, 0] x1 slices_S2x1600000_S1x1600000_1_0) shapeCasts_S1x1600000_S1600000) (broadcastInDim S1600000 ![] bcast_S_S1600000 (constantI S_ 32 0#32))) (addi (shapeCast _ (extractStridedSlice S1x1600000 ![1, 0] x1 slices_S2x1600000_S1x1600000_1_0) shapeCasts_S1x1600000_S1600000) (broadcastInDim S1600000 ![] bcast_S_S1600000 (constantI S_ 32 100000#32))) (shapeCast _ (extractStridedSlice S1x1600000 ![1, 0] x1 slices_S2x1600000_S1x1600000_1_0) shapeCasts_S1x1600000_S1600000)))))) (broadcastInDim S100000x40 ![0, 1] bcast_S1x40_S100000x40_0_1 (broadcastInDim S1x40 ![1] bcast_S40_S1x40_1 x6))) (broadcastInDim S100000x40 ![0, 1] bcast_S100000x1_S100000x40_0_1 (broadcastInDim S100000x1 ![0] bcast_S100000_S100000x1_0 (maximumf (broadcastInDim S100000 ![] bcast_S_S100000 (constant S_ .f32 0xFF800000#32)) (Host.reduce FloatOps.maximumf (addf (Host.scatterAdd scatter_S100000x40_S1600000x1_S1600000x40_1_0_0_1 (broadcastInDim S100000x40 ![] bcast_S_S100000x40 (constant S_ .f32 0x00000000#32)) (broadcastInDim S1600000x1 ![0] bcast_S1600000_S1600000x1_0 (shapeCast _ (extractStridedSlice S1x1600000 ![0, 0] x1 slices_S2x1600000_S1x1600000_0_0) shapeCasts_S1x1600000_S1600000)) (mulf (broadcastInDim S1600000x40 ![0, 1] bcast_S1600000x1_S1600000x40_0_1 (broadcastInDim S1600000x1 ![0] bcast_S1600000_S1600000x1_0 x2)) (Host.gather gather_S100000x40_S1600000x1_S1600000x40_1_0_n_n_0_1_140 (Host.dotGeneral dot_S100000x128_S128x40_S100000x40_1_0_0_1_n_n none (maximumf (addf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (shapeCast _ (extractStridedSlice S1x1600000 ![0, 0] x1 slices_S2x1600000_S1x1600000_0_0) shapeCasts_S1x1600000_S1600000)) (mulf (broadcastInDim S1600000x128 ![0, 1] bcast_S1600000x1_S1600000x128_0_1 (broadcastInDim S1600000x1 ![0] bcast_S1600000_S1600000x1_0 x2)) (Host.gather gather_S100000x128_S1600000x1_S1600000x128_1_0_n_n_0_1_1128 (Host.dotGeneral dot_S100000x512_S512x128_S100000x128_1_0_0_1_n_n none x0 x3) (broadcastInDim S1600000x1 ![0] bcast_S1600000_S1600000x1_0 (select (cmpi .slt (shapeCast _ (extractStridedSlice S1x1600000 ![1, 0] x1 slices_S2x1600000_S1x1600000_1_0) shapeCasts_S1x1600000_S1600000) (broadcastInDim S1600000 ![] bcast_S_S1600000 (constantI S_ 32 0#32))) (addi (shapeCast _ (extractStridedSlice S1x1600000 ![1, 0] x1 slices_S2x1600000_S1x1600000_1_0) shapeCasts_S1x1600000_S1600000) (broadcastInDim S1600000 ![] bcast_S_S1600000 (constantI S_ 32 100000#32))) (shapeCast _ (extractStridedSlice S1x1600000 ![1, 0] x1 slices_S2x1600000_S1x1600000_1_0) shapeCasts_S1x1600000_S1600000)))))) (broadcastInDim S100000x128 ![0, 1] bcast_S1x128_S100000x128_0_1 (broadcastInDim S1x128 ![1] bcast_S128_S1x128_1 x4))) (broadcastInDim S100000x128 ![] bcast_S_S100000x128 (constant S_ .f32 0x00000000#32))) x5) (broadcastInDim S1600000x1 ![0] bcast_S1600000_S1600000x1_0 (select (cmpi .slt (shapeCast _ (extractStridedSlice S1x1600000 ![1, 0] x1 slices_S2x1600000_S1x1600000_1_0) shapeCasts_S1x1600000_S1600000) (broadcastInDim S1600000 ![] bcast_S_S1600000 (constantI S_ 32 0#32))) (addi (shapeCast _ (extractStridedSlice S1x1600000 ![1, 0] x1 slices_S2x1600000_S1x1600000_1_0) shapeCasts_S1x1600000_S1600000) (broadcastInDim S1600000 ![] bcast_S_S1600000 (constantI S_ 32 100000#32))) (shapeCast _ (extractStridedSlice S1x1600000 ![1, 0] x1 slices_S2x1600000_S1x1600000_1_0) shapeCasts_S1x1600000_S1600000)))))) (broadcastInDim S100000x40 ![0, 1] bcast_S1x40_S100000x40_0_1 (broadcastInDim S1x40 ![1] bcast_S40_S1x40_1 x6))) (constant S_ .f32 0xFF800000#32) reducesTo_S100000x40_S100000_d1 h_S_)))))) (constant S_ .f32 0x00000000#32) reducesTo_S100000x40_S100000_d1 h_S_)))) : FVec Ideal S100000x40 .f32)
      = Cert.Spec.logSoftmaxRows (aggregate40 x1 x2 (Cert.Spec.reluDense2 (aggregate128 x1 x2 (Cert.Spec.dense1 x0 x3)) (biasRow1 x4) x5)) (biasRow2 x6) := by
  -- every first product is x · W1
  rewrite [ref_dense1 x0 x3]
  -- the gather, weight and scatter-add chain around it is the 128-wide aggregate of that layer
  rewrite [← aggregate128.eq_1 x1 x2 (Cert.Spec.dense1 x0 x3)]
  -- the second product, of the clamped and biased aggregate, is max (a + b1, 0) · W2
  rewrite [ref_dense2 (aggregate128 x1 x2 (Cert.Spec.dense1 x0 x3)) x4 x5]
  -- the chain around that is the 40-wide aggregate
  rewrite [← aggregate40.eq_1 x1 x2 (Cert.Spec.reluDense2 (aggregate128 x1 x2 (Cert.Spec.dense1 x0 x3)) (biasRow1 x4) x5)]
  -- what is left is the reference's log_softmax of the aggregate plus b2
  exact ref_logSoftmax (aggregate40 x1 x2 (Cert.Spec.reluDense2 (aggregate128 x1 x2 (Cert.Spec.dense1 x0 x3)) (biasRow1 x4) x5)) x6

end Cert.ReferenceIdeal.Laws

end
-- ==== Proof.RefRunValue.lean ====
/-
  The reference's run, read back as the composition of its layers.

  Its 66 host operations are taken in five consecutive stretches: the first product; the first weighted
  neighbourhood sum; the bias, the clamp at zero and the second product; the second neighbourhood sum; the last bias
  and the log-softmax. From any contents of the buffers each stretch leaves, in the buffer it ends on, the
  corresponding layer of what it found in the buffers it reads, and writes no argument array; composed, the result
  buffer ends at the whole network of the arguments. Two of the stretches go through operations of an inlined
  function, whose values pass through a typed reference's buffer and back: sent there and read back they are
  unchanged, and at each buffer such a value enters or leaves by, the passage is the identity.
-/
import proofs.«101329_j48601849921727_1_alg».proof.Proof.RefRun
import proofs.«101329_j48601849921727_1_alg».proof.Proof.RefValue
import proofs.«101329_j48601849921727_1_alg».proof.Proof.Gen.ReferenceIdeal
import Idealize.ShloMosaic.Lib.StableHlo.Run
import Idealize.ShloMosaic.Lib.Pipeline.Frame

set_option maxRecDepth 65536

noncomputable section

namespace Cert.ReferenceIdeal.RunValue

open Cert.ReferenceIdeal Cert.ReferenceIdeal.Gen Cert.ReferenceIdeal.RunOps
open Idealize.ShloMosaic Idealize.ShloMosaic.TcCoe Idealize.SL.Sem Idealize.ShloMosaic.StableHlo

/-! ## Values through a typed reference's buffer -/

/-- Contents sent to a typed reference's buffer and read back are the contents. -/
theorem ofBuf_toBuf {T : BufTy} (x : TRef sig T) (v : T.Contents (Elt Ideal)) : x.ofBuf (x.toBuf v) = v := by
  obtain ⟨r, h, h2, h3⟩ := x
  subst h
  rfl

/-- At the buffers a value enters or leaves an inlined function by, the passage is the identity. -/
theorem ofBuf_v20 (h1 h2 h3) (v : FVec Ideal S100000x128 .f32) :
    (TRef.of (T := ⟨S100000x128, .f32⟩) main_v20 h1 h2 h3).ofBuf (Val := Elt Ideal) v = v := rfl
theorem toBuf_v21 (h1 h2 h3) (v : FVec Ideal S100000x128 .f32) :
    (TRef.of (T := ⟨S100000x128, .f32⟩) main_v21 h1 h2 h3).toBuf (Val := Elt Ideal) v = v := rfl
theorem ofBuf_v42 (h1 h2 h3) (v : FVec Ideal S100000x40 .f32) :
    (TRef.of (T := ⟨S100000x40, .f32⟩) main_v42 h1 h2 h3).ofBuf (Val := Elt Ideal) v = v := rfl
theorem toBuf_v43 (h1 h2 h3) (v : FVec Ideal S100000x40 .f32) :
    (TRef.of (T := ⟨S100000x40, .f32⟩) main_v43 h1 h2 h3).toBuf (Val := Elt Ideal) v = v := rfl

/-! ## The five stretches -/

abbrev product1 : List (HloOp τ sig (Elt Ideal)) := (ops (F := Ideal)).take 1
abbrev gather1 : List (HloOp τ sig (Elt Ideal)) := ((ops (F := Ideal)).drop 1).take 20
abbrev product2 : List (HloOp τ sig (Elt Ideal)) := ((ops (F := Ideal)).drop 21).take 7
abbrev gather2 : List (HloOp τ sig (Elt Ideal)) := ((ops (F := Ideal)).drop 28).take 20
abbrev softmax : List (HloOp τ sig (Elt Ideal)) := (ops (F := Ideal)).drop 48

theorem ops_split : ops (F := Ideal) = product1 ++ (gather1 ++ (product2 ++ (gather2 ++ softmax))) := rfl

set_option maxHeartbeats 4000000 in
/-- The first stretch leaves x · W1. -/
theorem product1_value (W : Valuation τ sig (Elt Ideal)) :
    StableHlo.after product1 W (Proc.devRef .tc main_v0)
      = Cert.Spec.dense1 (W (Proc.devRef .tc main_arg0)) (W (Proc.devRef .tc main_arg3)) := by
  simp only [product1, ops, List.take]
  after_results_simp
  exact Laws.ref_dense1 _ _

set_option maxHeartbeats 4000000 in
/-- The second leaves the weighted neighbourhood sum of what it finds in the first's buffer. -/
theorem gather1_value (W : Valuation τ sig (Elt Ideal)) :
    StableHlo.after gather1 W (Proc.devRef .tc main_v17)
      = Laws.aggregate128 (W (Proc.devRef .tc main_arg1)) (W (Proc.devRef .tc main_arg2)) (W (Proc.devRef .tc main_v0)) := by
  simp only [gather1, ops, List.take, List.drop]
  after_results_simp
  rfl

set_option maxHeartbeats 4000000 in
/-- The third leaves max (a + b, 0) · W2 of the aggregate it finds. -/
theorem product2_value (W : Valuation τ sig (Elt Ideal)) :
    StableHlo.after product2 W (Proc.devRef .tc main_v22)
      = Cert.Spec.reluDense2 (W (Proc.devRef .tc main_v17)) (Laws.biasRow1 (W (Proc.devRef .tc main_arg4))) (W (Proc.devRef .tc main_arg5)) := by
  simp only [product2, ops, List.take, List.drop]
  after_results_simp
  simp only [ofBuf_toBuf]
  rw [toBuf_v21, ofBuf_v20]
  exact Laws.ref_dense2 _ _ _

set_option maxHeartbeats 4000000 in
/-- The fourth leaves the weighted neighbourhood sum of what it finds in the third's buffer. -/
theorem gather2_value (W : Valuation τ sig (Elt Ideal)) :
    StableHlo.after gather2 W (Proc.devRef .tc main_v39)
      = Laws.aggregate40 (W (Proc.devRef .tc main_arg1)) (W (Proc.devRef .tc main_arg2)) (W (Proc.devRef .tc main_v22)) := by
  simp only [gather2, ops, List.take, List.drop]
  after_results_simp
  rfl

set_option maxHeartbeats 4000000 in
/-- The fifth leaves the row-wise log-softmax of the aggregate it finds plus the bias. -/
theorem softmax_value (W : Valuation τ sig (Elt Ideal)) :
    StableHlo.after softmax W (Proc.devRef .tc main_v43)
      = Cert.Spec.logSoftmaxRows (W (Proc.devRef .tc main_v39)) (Laws.biasRow2 (W (Proc.devRef .tc main_arg6))) := by
  simp only [softmax, ops, List.drop]
  after_results_simp
  simp only [ofBuf_toBuf]
  rw [toBuf_v43, ofBuf_v42]
  exact Laws.ref_logSoftmax _ _

/-! ## No stretch writes an argument array a later one reads -/

set_option maxHeartbeats 4000000 in
theorem product1_keeps1 (W : Valuation τ sig (Elt Ideal)) :
    StableHlo.after product1 W (Proc.devRef .tc main_arg1) = W (Proc.devRef .tc main_arg1) := by
  simp only [product1, ops, List.take]
  after_results_simp

set_option maxHeartbeats 4000000 in
theorem product1_keeps2 (W : Valuation τ sig (Elt Ideal)) :
    StableHlo.after product1 W (Proc.devRef .tc main_arg2) = W (Proc.devRef .tc main_arg2) := by
  simp only [product1, ops, List.take]
  after_results_simp

set_option maxHeartbeats 4000000 in
theorem product1_keeps4 (W : Valuation τ sig (Elt Ideal)) :
    StableHlo.after product1 W (Proc.devRef .tc main_arg4) = W (Proc.devRef .tc main_arg4) := by
  simp only [product1, ops, List.take]
  after_results_simp

set_option maxHeartbeats 4000000 in
theorem product1_keeps5 (W : Valuation τ sig (Elt Ideal)) :
    StableHlo.after product1 W (Proc.devRef .tc main_arg5) = W (Proc.devRef .tc main_arg5) := by
  simp only [product1, ops, List.take]
  after_results_simp

set_option maxHeartbeats 4000000 in
theorem product1_keeps6 (W : Valuation τ sig (Elt Ideal)) :
    StableHlo.after product1 W (Proc.devRef .tc main_arg6) = W (Proc.devRef .tc main_arg6) := by
  simp only [product1, ops, List.take]
  after_results_simp

set_option maxHeartbeats 4000000 in
theorem gather1_keeps1 (W : Valuation τ sig (Elt Ideal)) :
    StableHlo.after gather1 W (Proc.devRef .tc main_arg1) = W (Proc.devRef .tc main_arg1) := by
  simp only [gather1, ops, List.take, List.drop]
  after_results_simp

set_option maxHeartbeats 4000000 in
theorem gather1_keeps2 (W : Valuation τ sig (Elt Ideal)) :
    StableHlo.after gather1 W (Proc.devRef .tc main_arg2) = W (Proc.devRef .tc main_arg2) := by
  simp only [gather1, ops, List.take, List.drop]
  after_results_simp

set_option maxHeartbeats 4000000 in
theorem gather1_keeps4 (W : Valuation τ sig (Elt Ideal)) :
    StableHlo.after gather1 W (Proc.devRef .tc main_arg4) = W (Proc.devRef .tc main_arg4) := by
  simp only [gather1, ops, List.take, List.drop]
  after_results_simp

set_option maxHeartbeats 4000000 in
theorem gather1_keeps5 (W : Valuation τ sig (Elt Ideal)) :
    StableHlo.after gather1 W (Proc.devRef .tc main_arg5) = W (Proc.devRef .tc main_arg5) := by
  simp only [gather1, ops, List.take, List.drop]
  after_results_simp

set_option maxHeartbeats 4000000 in
theorem gather1_keeps6 (W : Valuation τ sig (Elt Ideal)) :
    StableHlo.after gather1 W (Proc.devRef .tc main_arg6) = W (Proc.devRef .tc main_arg6) := by
  simp only [gather1, ops, List.take, List.drop]
  after_results_simp

set_option maxHeartbeats 4000000 in
theorem product2_keeps1 (W : Valuation τ sig (Elt Ideal)) :
    StableHlo.after product2 W (Proc.devRef .tc main_arg1) = W (Proc.devRef .tc main_arg1) := by
  simp only [product2, ops, List.take, List.drop]
  after_results_simp

set_option maxHeartbeats 4000000 in
theorem product2_keeps2 (W : Valuation τ sig (Elt Ideal)) :
    StableHlo.after product2 W (Proc.devRef .tc main_arg2) = W (Proc.devRef .tc main_arg2) := by
  simp only [product2, ops, List.take, List.drop]
  after_results_simp

set_option maxHeartbeats 4000000 in
theorem product2_keeps6 (W : Valuation τ sig (Elt Ideal)) :
    StableHlo.after product2 W (Proc.devRef .tc main_arg6) = W (Proc.devRef .tc main_arg6) := by
  simp only [product2, ops, List.take, List.drop]
  after_results_simp

set_option maxHeartbeats 4000000 in
theorem gather2_keeps6 (W : Valuation τ sig (Elt Ideal)) :
    StableHlo.after gather2 W (Proc.devRef .tc main_arg6) = W (Proc.devRef .tc main_arg6) := by
  simp only [gather2, ops, List.take, List.drop]
  after_results_simp

/-! ## The whole line -/

/-- The network of the reference's arguments. -/
def network (x0 : FVec Ideal S100000x512 .f32) (x1 : (⟨S2x1600000, .i32⟩ : BufTy).Contents (Elt Ideal)) (x2 : FVec Ideal S1600000 .f32)
    (x3 : FVec Ideal S512x128 .f32) (x4 : FVec Ideal S128 .f32) (x5 : FVec Ideal S128x40 .f32) (x6 : FVec Ideal S40 .f32) :
    FVec Ideal S100000x40 .f32 :=
  Cert.Spec.logSoftmaxRows
    (Laws.aggregate40 x1 x2 (Cert.Spec.reluDense2 (Laws.aggregate128 x1 x2 (Cert.Spec.dense1 x0 x3)) (Laws.biasRow1 x4) x5))
    (Laws.biasRow2 x6)

/-- After all 66 operations the result buffer holds the network of the argument buffers' contents. -/
theorem value (W : Valuation τ sig (Elt Ideal)) :
    StableHlo.after (ops (F := Ideal)) W (Proc.devRef .tc main_v43)
      = network (W (Proc.devRef .tc main_arg0)) (W (Proc.devRef .tc main_arg1)) (W (Proc.devRef .tc main_arg2))
          (W (Proc.devRef .tc main_arg3)) (W (Proc.devRef .tc main_arg4)) (W (Proc.devRef .tc main_arg5)) (W (Proc.devRef .tc main_arg6)) := by
  rw [ops_split, StableHlo.after_append, StableHlo.after_append, StableHlo.after_append, StableHlo.after_append]
  rw [softmax_value, gather2_value, gather2_keeps6, product2_value, product2_keeps1, product2_keeps2, product2_keeps6,
    gather1_value, gather1_keeps1, gather1_keeps2, gather1_keeps4, gather1_keeps5, gather1_keeps6,
    product1_value, product1_keeps1, product1_keeps2, product1_keeps4, product1_keeps5, product1_keeps6]
  rfl

set_option maxHeartbeats 26400000 in
/-- The reference's run: every weakly fair execution terminates with the result at the network of the arguments and
    the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v43)
        = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v43).trans (value _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.ReferenceIdeal.RunValue

end
-- ==== Proof.Bridge.lean ====
/-
  The kernel program's network and the reference's composition are one function of the arguments.

  The two programs spell the weighted neighbourhood sum with the same operations over their own copies of the
  same shape records, so the two chains are one function; and a bias vector reshaped to one row is the bias vector
  broadcast to one row: both read the vector at the column.
-/
import proofs.«101329_j48601849921727_1_alg».proof.Proof.KernelValue
import proofs.«101329_j48601849921727_1_alg».proof.Proof.RefValue
import proofs.«101329_j48601849921727_1_alg».proof.Proof.Gen.ReferenceIdeal

set_option maxRecDepth 65536

noncomputable section

namespace Cert.Bridge

open Idealize.ShloMosaic Idealize.ShloMosaic.ValueIdx

theorem aggregate128_eq (x1 : (⟨⟨2, ![2, 1600000]⟩, .i32⟩ : BufTy).Contents (Elt Ideal)) (x2 : FVec Ideal ⟨1, ![1600000]⟩ .f32)
    (s : FVec Ideal ⟨2, ![100000, 128]⟩ .f32) :
    Cert.KernelIdeal.Result.aggregate128 x1 x2 s = Cert.ReferenceIdeal.Laws.aggregate128 x1 x2 s := rfl

theorem aggregate40_eq (x1 : (⟨⟨2, ![2, 1600000]⟩, .i32⟩ : BufTy).Contents (Elt Ideal)) (x2 : FVec Ideal ⟨1, ![1600000]⟩ .f32)
    (s : FVec Ideal ⟨2, ![100000, 40]⟩ .f32) :
    Cert.KernelIdeal.Result.aggregate40 x1 x2 s = Cert.ReferenceIdeal.Laws.aggregate40 x1 x2 s := rfl

/-- A vector reshaped to one row is the vector broadcast to one row. -/
theorem row_of_vector {n : ℕ} (hn : n ≠ 1) (b : FVec Ideal ⟨1, ![n]⟩ .f32)
    (h₁ : (⟨1, ![n]⟩ : Shape).ShapeCasts ⟨2, ![1, n]⟩)
    (h₂ : (⟨1, ![n]⟩ : Shape).BroadcastsInDim ⟨2, ![1, n]⟩ (![1] : Fin 1 → Fin 2)) :
    shapeCast ⟨2, ![1, n]⟩ b h₁ = broadcastInDim ⟨2, ![1, n]⟩ ![1] h₂ b := by
  funext j
  obtain ⟨p, q, rfl⟩ : ∃ (p : Fin 1) (q : Fin n), j = ix2 p q := ⟨j 0, j 1, eq_ix2 j⟩
  refine (shapeCast_apply b h₁ (ix2 p q) (ix1 q) ?_).trans (broadcastInDim_apply _ h₂ b (ix2 p q) (ix1 q) fun a => ?_).symm
  · rw [Shape.rowMajor_val_one, Shape.rowMajor_val_two]
    show q.val = p.val * n + q.val
    have hp : p.val = 0 := by have := p.isLt; omega
    rw [hp, Nat.zero_mul, Nat.zero_add]
  · match a with
    | ⟨0, _⟩ => show q.val = if n = 1 then 0 else q.val; rw [if_neg hn]

/-- The kernel program's network is the reference's composition of the layers. -/
theorem network_eq (x0 : FVec Ideal ⟨2, ![100000, 512]⟩ .f32) (x1 : (⟨⟨2, ![2, 1600000]⟩, .i32⟩ : BufTy).Contents (Elt Ideal))
    (x2 : FVec Ideal ⟨1, ![1600000]⟩ .f32) (x3 : FVec Ideal ⟨2, ![512, 128]⟩ .f32) (x4 : FVec Ideal ⟨1, ![128]⟩ .f32)
    (x5 : FVec Ideal ⟨2, ![128, 40]⟩ .f32) (x6 : FVec Ideal ⟨1, ![40]⟩ .f32) :
    Cert.KernelIdeal.Result.network x0 x1 x2 x3 x4 x5 x6
      = Cert.Spec.logSoftmaxRows
          (Cert.ReferenceIdeal.Laws.aggregate40 x1 x2
            (Cert.Spec.reluDense2 (Cert.ReferenceIdeal.Laws.aggregate128 x1 x2 (Cert.Spec.dense1 x0 x3))
              (Cert.ReferenceIdeal.Laws.biasRow1 x4) x5))
          (Cert.ReferenceIdeal.Laws.biasRow2 x6) := by
  unfold Cert.KernelIdeal.Result.network
  rw [aggregate128_eq, aggregate40_eq]
  rw [row_of_vector (by decide) x4 _ Cert.ReferenceIdeal.Facts₀.bcast_S128_S1x128_1,
    row_of_vector (by decide) x6 _ Cert.ReferenceIdeal.Facts₀.bcast_S40_S1x40_1]

end Cert.Bridge

end
-- ==== Proof.lean ====
/-
  A two-layer graph convolution with a log-softmax, as a kernel program of three pipelined regions and as plain
  host operations, are one function of the arguments on the extended reals.

  Both compute log_softmax (A · (max (A · (x · W1) + b1, 0) · W2) + b2) row by row, A the weighted neighbourhood sum
  over the edge list. The kernel program's regions take 2000 rows at a time: the first stores x · W1, the second
  max (a + b1, 0) · W2 of the aggregate a of the first, the third the row-wise log-softmax of the aggregate of the
  second plus b2; the fifty blocks of each cover its result array. The neighbourhood sums are host operations in both
  programs, the same chain, kept as one function. On the extended reals a product into a zero accumulator is the plain
  sum of products, a change of float format is the identity, the row maximum and the row sum are the same fold and the
  same sum on either side, and the maximum taken once more against −∞ changes nothing; so the two results agree entry
  by entry, with no use of the inputs' finiteness. The frames of the two kernel programs are the generated ones; the
  reference's frame is its run with the result dropped; the idealization rewrote nothing.
-/
import proofs.«101329_j48601849921727_1_alg».proof.Defs
import proofs.«101329_j48601849921727_1_alg».proof.Proof.Gen.Kernel
import proofs.«101329_j48601849921727_1_alg».proof.Proof.Gen.Kernel.Frame
import proofs.«101329_j48601849921727_1_alg».proof.Proof.Gen.KernelIdeal
import proofs.«101329_j48601849921727_1_alg».proof.Proof.Gen.KernelIdeal.Frame
import proofs.«101329_j48601849921727_1_alg».proof.Proof.Gen.ReferenceIdeal
import proofs.«101329_j48601849921727_1_alg».proof.Proof.Gen.Pre_finite_inputs
import proofs.«101329_j48601849921727_1_alg».proof.Proof.KernelValue
import proofs.«101329_j48601849921727_1_alg».proof.Proof.RefRunValue
import proofs.«101329_j48601849921727_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_reference : Cert.frame_ReferenceIdeal := fun m ρ _ =>
  (θ_run Cert.ReferenceIdeal.defs _ _).mono (fun _ h c => (h c).2) (Cert.ReferenceIdeal.RunValue.run m ρ)

/-- The idealization rewrote no operation. -/
theorem preserves : Cert.preserves_Kernel_KernelIdeal := trivial

/-- From memories agreeing on the arguments both programs end with the network of the arguments in their result. -/
theorem algebraic : Cert.algebraic_KernelIdeal_ReferenceIdeal := by
  intro m ρ m' ρ' _ hagree
  refine ⟨fun c => Cert.KernelIdeal.Result.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Result.run m ρ, ?_⟩
  refine (θ_run Cert.ReferenceIdeal.defs _ _).mono (fun _ h c => ⟨(h c).1.trans ?_, (h c).2⟩)
    (Cert.ReferenceIdeal.RunValue.run m' ρ')
  obtain ⟨e0, e1, e2, e3, e4, e5, e6⟩ := hagree c
  rw [e0, e1, e2, e3, e4, e5, e6]
  unfold Cert.ReferenceIdeal.RunValue.network
  exact (Cert.Bridge.network_eq _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
